-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4x4096x256 .f32) (main_arg1 : FVec F S4x4096x256 .f32) (main_arg2 : FVec F S4x4096x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x256 .f32 := Host.absf main_arg2
  let main_cst_2 : FVec F S_ .f32 := constant S_ .f32 0x7F800000#32
  let main_v10 : FVec F S4x4096x256 .f32 := broadcastInDim S4x4096x256 ![] bcast_S_S4x4096x256 main_cst_2
  let main_v11 : IVec S4x4096x256 1 := cmpf .olt main_v9 main_v10
  let main_c_3 : IVec S_ 1 := constantI S_ 1 1#1
  let main_v12 : IVec S_ 1 := (fun x v => Host.reduce IntOp.andi x v reducesTo_S4x4096x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S16384x256 : Shape := ⟨2, ![16384, 256]⟩
abbrev S1x16384x256 : Shape := ⟨3, ![1, 16384, 256]⟩
abbrev S3x16384x256 : Shape := ⟨3, ![3, 16384, 256]⟩
abbrev S1x256x256 : Shape := ⟨3, ![1, 256, 256]⟩
abbrev S3x256x256 : Shape := ⟨3, ![3, 256, 256]⟩
abbrev S1x256 : Shape := ⟨2, ![1, 256]⟩
abbrev S3x256 : Shape := ⟨2, ![3, 256]⟩
abbrev S3x1x256 : Shape := ⟨3, ![3, 1, 256]⟩
abbrev S1x2048x256 : Shape := ⟨3, ![1, 2048, 256]⟩
abbrev S1x1x256 : Shape := ⟨3, ![1, 1, 256]⟩
abbrev S2048x256 : Shape := ⟨2, ![2048, 256]⟩
abbrev S1x4096x256 : Shape := ⟨3, ![1, 4096, 256]⟩
abbrev S4096x256 : Shape := ⟨2, ![4096, 256]⟩
abbrev S256x4096 : Shape := ⟨2, ![256, 4096]⟩
abbrev S256x1 : Shape := ⟨2, ![256, 1]⟩

abbrev nBuf : Space → Nat
  | .hbm => 39
  | .vmem => 16
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S1x16384x256, .f32⟩
  | .hbm, ⟨13, _⟩ => ⟨S1x16384x256, .f32⟩
  | .hbm, ⟨14, _⟩ => ⟨S1x16384x256, .f32⟩
  | .hbm, ⟨15, _⟩ => ⟨S3x16384x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S1x256x256, .f32⟩
  | .hbm, ⟨20, _⟩ => ⟨S1x256x256, .f32⟩
  | .hbm, ⟨21, _⟩ => ⟨S1x256x256, .f32⟩
  | .hbm, ⟨22, _⟩ => ⟨S3x256x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S3x256, .f32⟩
  | .hbm, ⟨27, _⟩ => ⟨S3x1x256, .f32⟩
  | .hbm, ⟨28, _⟩ => ⟨S3x16384x256, .bf16⟩
  | .hbm, ⟨29, _⟩ => ⟨S1x16384x256, .bf16⟩
  | .hbm, ⟨30, _⟩ => ⟨S16384x256, .bf16⟩
  | .hbm, ⟨31, _⟩ => ⟨S4x4096x256, .bf16⟩
  | .hbm, ⟨32, _⟩ => ⟨S1x16384x256, .bf16⟩
  | .hbm, ⟨33, _⟩ => ⟨S16384x256, .bf16⟩
  | .hbm, ⟨34, _⟩ => ⟨S4x4096x256, .bf16⟩
  | .hbm, ⟨35, _⟩ => ⟨S1x16384x256, .bf16⟩
  | .hbm, ⟨36, _⟩ => ⟨S16384x256, .bf16⟩
  | .hbm, ⟨37, _⟩ => ⟨S4x4096x256, .bf16⟩
  | .hbm, ⟨38, _⟩ => ⟨S4x4096x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .bf16⟩
  | .local _ .vmem, ⟨7, _⟩ => ⟨S1x2048x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S1x256x256, .f32⟩
  | .local _ .vmem, ⟨15, _⟩ => ⟨S1x256x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x4096x256_S16384x256 : S4x4096x256.ShapeCasts S16384x256
  bcast_S16384x256_S1x16384x256_1_2 : S16384x256.BroadcastsInDim S1x16384x256 (![1, 2] : Fin 2 → Fin S1x16384x256.rank)
  concatenates_S1x16384x256_S1x16384x256_S1x16384x256_S3x16384x256_d0 : Shape.Concatenates [S1x16384x256, S1x16384x256, S1x16384x256] S3x16384x256 0
  transposes_S256x256_S256x256_1_0 : S256x256.Transposes [1, 0] S256x256
  bcast_S256x256_S1x256x256_1_2 : S256x256.BroadcastsInDim S1x256x256 (![1, 2] : Fin 2 → Fin S1x256x256.rank)
  concatenates_S1x256x256_S1x256x256_S1x256x256_S3x256x256_d0 : Shape.Concatenates [S1x256x256, S1x256x256, S1x256x256] S3x256x256 0
  bcast_S256_S1x256_1 : S256.BroadcastsInDim S1x256 (![1] : Fin 1 → Fin S1x256.rank)
  concatenates_S1x256_S1x256_S1x256_S3x256_d0 : Shape.Concatenates [S1x256, S1x256, S1x256] S3x256 0
  bcast_S3x256_S3x1x256_0_2 : S3x256.BroadcastsInDim S3x1x256 (![0, 2] : Fin 2 → Fin S3x1x256.rank)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  slices_S3x16384x256_S1x16384x256_0_0_0 : S3x16384x256.Slices ![0, 0, 0] S1x16384x256
  shapeCasts_S1x16384x256_S16384x256 : S1x16384x256.ShapeCasts S16384x256
  shapeCasts_S16384x256_S4x4096x256 : S16384x256.ShapeCasts S4x4096x256
  slices_S3x16384x256_S1x16384x256_1_0_0 : S3x16384x256.Slices ![1, 0, 0] S1x16384x256
  slices_S3x16384x256_S1x16384x256_2_0_0 : S3x16384x256.Slices ![2, 0, 0] S1x16384x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  transposes_S4096x256_p1_0_S256x4096 : S4096x256.Transposes [1, 0] S256x4096
  reduces_S256x4096_S256 : S256x4096.Reduces [1] S256
  shapeCasts_S256_S256x1 : S256.ShapeCasts S256x1
  broadcasts_S256x1_S256x4096 : S256x1.Broadcasts S256x4096
  broadcasts_S256x1_S256x256 : S256x1.Broadcasts S256x256
  shapeCasts_S256x256_S1x256x256 : S256x256.ShapeCasts S1x256x256
  dot_S2048x256_S256x256_S2048x256_1_0_0_1_n_n_wf : DotDims.WF S2048x256 S256x256 S2048x256 [1] [0] [0] [1] [] []
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S3x16384x256.size a
  hwx0_0 : ∀ i : grid0.Coords, EltTy.bits .f32 = 32 ∨ (Rect.block (s := S3x16384x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S3x256x256.size a
  hwx0_1 : ∀ i : grid0.Coords, EltTy.bits .f32 = 32 ∨ (Rect.block (s := S3x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S3x1x256.size a
  hwx0_2 : ∀ i : grid0.Coords, EltTy.bits .f32 = 32 ∨ (Rect.block (s := S3x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S3x16384x256.size a
  hwx0_3 : ∀ i : grid0.Coords, EltTy.bits .bf16 = 32 ∨ (Rect.block (s := S3x16384x256) S1x2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S4x4096x256.size a
  hwx1_0 : ∀ i : grid1.Coords, EltTy.bits .bf16 = 32 ∨ (Rect.block (s := S4x4096x256) S1x256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S4x4096x256.size a
  hwx1_1 : ∀ i : grid1.Coords, EltTy.bits .bf16 = 32 ∨ (Rect.block (s := S4x4096x256) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x4096x256.size a
  hwx1_2 : ∀ i : grid1.Coords, EltTy.bits .bf16 = 32 ∨ (Rect.block (s := S4x4096x256) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S4x4096x256.size a
  hwx1_3 : ∀ i : grid1.Coords, EltTy.bits .f32 = 32 ∨ (Rect.block (s := S4x4096x256) S1x256x256.size (cc1_transform_3 i) (hinb1_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v6) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4x4096x256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S1x1x256, .f32⟩
  | .hbm, ⟨15, _⟩ => ⟨S4x4096x256, .f32⟩
  | .hbm, ⟨16, _⟩ => ⟨S4x4096x256, .f32⟩
  | .hbm, ⟨17, _⟩ => ⟨S4x4096x256, .f32⟩
  | .hbm, ⟨18, _⟩ => ⟨S1x1x256, .f32⟩
  | .hbm, ⟨19, _⟩ => ⟨S4x4096x256, .f32⟩
  | .hbm, ⟨20, _⟩ => ⟨S4x4096x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.BitsProjection.lean ====
/-
  The first pallas_call of the program Kernel (the same text as the idealized program's, read at any float instance): the three
  stacked linear projections. The body is run once on abstract blocks and the pipeline's proof data packaged, exactly as for the
  idealized program; only the program's name differs.
-/
import proofs.«403177_j39006892982631_3_alg».proof.Proof.Gen.Kernel.Launch
import proofs.«403177_j39006892982631_3_alg».proof.Proof.Gen.Kernel.Skeleton
import proofs.«403177_j39006892982631_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of pallas_call 0 (`cc0__linear_kernel`), at the contents `V` the core's buffers hold when it is entered -/

section
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every grid point, whether the pipeline fetched it there
    or kept it from an earlier point whose block index is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every grid point, whether the pipeline fetched it there
    or kept it from an earlier point whose block index is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every grid point, whether the pipeline fetched it there
    or kept it from an earlier point whose block index is the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x2048x256 := Rect.unit (s := S1x2048x256) ![0, 0, 0] S1x2048x256.size inb_S1x2048x256_S1x2048x256_0_0_0
abbrev r0_1 : Rect S1x256x256 := Rect.unit (s := S1x256x256) ![0, 0, 0] S1x256x256.size inb_S1x256x256_S1x256x256_0_0_0
abbrev r0_2 : Rect S1x1x256 := Rect.unit (s := S1x1x256) ![0, 0, 0] S1x1x256.size inb_S1x1x256_S1x1x256_0_0_0
abbrev r0_3 : Rect S1x2048x256 := Rect.unit (s := S1x2048x256) ![0, 0, 0] S1x2048x256.size inb_S1x2048x256_S1x2048x256_0_0_0

/-- What the body leaves in the output window's staging buffer, from the input windows' blocks: its one store, of the
    whole block. -/
def out0_3 (x0 : Vec F S1x2048x256 .f32) (x1 : Vec F S1x256x256 .f32) (x2 : Vec F S1x1x256 .f32) : Vec F S1x2048x256 .bf16 :=
  View.canon [⟨r0_3, k0_pay1 (View.ld x0 r0_0) (View.ld x1 r0_1) (View.ld x2 r0_2)⟩]

/-- The one store covers the buffer. -/
theorem cover0_3 (p0 : Vec F S1x2048x256 .bf16) (y : S1x2048x256.Idx) :
    ∃ pc ∈ ([⟨r0_3, p0⟩] : List (View.Piece (Elt F) S1x2048x256 .bf16)), y ∈ pc.1.set :=
  View.cover_of_tiled [⟨r0_3, p0⟩] S1x2048x256.size (by rfl) y

set_option maxHeartbeats 1000000 in
/-- The kernel body, run on whole staging buffers that hold the inputs' blocks `x_w` (the output's buffer holding anything),
    ends with the inputs' buffers unchanged and the output's at `out0_3` of the inputs. -/
theorem sound_kernel0 (c : Dev nD) (E : Set ℕ) (i : grid0.Coords) (arg2 : Memref sig .tc .vmem S1x2048x256 .f32) (harg2 : arg2.IsWhole) (arg3 : Memref sig .tc .vmem S1x256x256 .f32) (harg3 : arg3.IsWhole) (arg4 : Memref sig .tc .vmem S1x1x256 .f32) (harg4 : arg4.IsWhole) (arg5 : Memref sig .tc .vmem S1x2048x256 .bf16) (harg5 : arg5.IsWhole)
    (x0 : Vec F S1x2048x256 .f32) (x1 : Vec F S1x256x256 .f32) (x2 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the windows' arrays as the region finds them; after the body at point `t` each
    input's buffer still at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' staging buffers hold their blocks, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end

end Cert.Kernel.Run

end
-- ==== Proof.BitsAttention.lean ====
/-
  The second pallas_call of the program Kernel (the same text as the idealized program's, read at any float instance): single-pass
  attention. The body is run once on abstract blocks and the pipeline's proof data packaged, exactly as for the idealized program;
  only the program's name differs.
-/
import proofs.«403177_j39006892982631_3_alg».proof.Proof.Gen.Kernel.Launch
import proofs.«403177_j39006892982631_3_alg».proof.Proof.Gen.Kernel.Skeleton
import proofs.«403177_j39006892982631_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of pallas_call 1 (`cc1__attn_kernel`), at the contents `V` the core's buffers hold when it is entered -/

section
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every grid point, whether the pipeline fetched it there
    or kept it from an earlier point whose block index is the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every grid point, whether the pipeline fetched it there
    or kept it from an earlier point whose block index is the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every grid point, whether the pipeline fetched it there
    or kept it from an earlier point whose block index is the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x256x256 := Rect.unit (s := S1x256x256) ![0, 0, 0] S1x256x256.size inb_S1x256x256_S1x256x256_0_0_0
abbrev r1_1 : Rect S1x4096x256 := Rect.unit (s := S1x4096x256) ![0, 0, 0] S1x4096x256.size inb_S1x4096x256_S1x4096x256_0_0_0
abbrev r1_2 : Rect S1x4096x256 := Rect.unit (s := S1x4096x256) ![0, 0, 0] S1x4096x256.size inb_S1x4096x256_S1x4096x256_0_0_0
abbrev r1_3 : Rect S1x256x256 := Rect.unit (s := S1x256x256) ![0, 0, 0] S1x256x256.size inb_S1x256x256_S1x256x256_0_0_0

/-- What the body leaves in the output window's staging buffer, from the input windows' blocks: its one store, of the
    whole block. -/
def out1_3 (x0 : Vec F S1x256x256 .bf16) (x1 : Vec F S1x4096x256 .bf16) (x2 : Vec F S1x4096x256 .bf16) : Vec F S1x256x256 .f32 :=
  View.canon [⟨r1_3, k1_pay1 (View.ld x0 r1_0) (View.ld x1 r1_1) (View.ld x2 r1_2)⟩]

/-- The one store covers the buffer. -/
theorem cover1_3 (p0 : Vec F S1x256x256 .f32) (y : S1x256x256.Idx) :
    ∃ pc ∈ ([⟨r1_3, p0⟩] : List (View.Piece (Elt F) S1x256x256 .f32)), y ∈ pc.1.set :=
  View.cover_of_tiled [⟨r1_3, p0⟩] S1x256x256.size (by rfl) y

set_option maxHeartbeats 1000000 in
/-- The kernel body, run on whole staging buffers that hold the inputs' blocks `x_w` (the output's buffer holding anything),
    ends with the inputs' buffers unchanged and the output's at `out1_3` of the inputs. -/
theorem sound_kernel1 (c : Dev nD) (E : Set ℕ) (i : grid1.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .f32) (harg5 : arg5.IsWhole)
    (x0 : Vec F S1x256x256 .bf16) (x1 : Vec F S1x4096x256 .bf16) (x2 : Vec F S1x4096x256 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the windows' arrays as the region finds them; after the body at point `t` each
    input's buffer still at its block and the output's at `out1_3` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' staging buffers hold their blocks, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end

end Cert.Kernel.Run

end
-- ==== Proof.BitsRun.lean ====
/-
  The whole run of the program Kernel (the same text as the idealized program's, read at any float instance): host operations, the
  projection region, host operations, the attention region, with the buffers' contents followed through @main as a fold from the
  launch memory; no host operation and no region writes an argument array, so each argument ends as launched.
-/
import proofs.«403177_j39006892982631_3_alg».proof.Proof.BitsProjection
import proofs.«403177_j39006892982631_3_alg».proof.Proof.BitsAttention
import proofs.«403177_j39006892982631_3_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the first stretch of host operations: what the projection region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the attention region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that no host operation writes and that is no window's array of either region ends as launched. -/
theorem W4_untouched (c : Dev nD) (r : Ref sig .tc) (h0 : r ∉ hostOps0_W) (h1 : r ∉ hostOps1_W)
    (hr0 : ∀ w, Pipeline.arrRef spec0 w ≠ r) (hr1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hr1
    _ = W2 m ρ c (Proc.devRef .tc r) := StableHlo.after_of_writes_sub hostOps1 _ hostOps1_writes h1
    _ = W1 m ρ c (Proc.devRef .tc r) := W2_of_ne m ρ c r hr0
    _ = W0 m ρ c (Proc.devRef .tc r) := StableHlo.after_of_writes_sub hostOps0 _ hostOps0_writes h0
    _ = m ((c : Thread nD τ).loc r) := rfl

/-! ## The proof data of both pipelines and the state carried between the segments -/

/-- Neither pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers every segment carries the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped buffers at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the `owes`: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- The projection region: entered with every unscoped buffer at `W1`, left with them at `W2`. Its windows' arrays are split out
    of the unscoped buffers at entry and put back at their final contents at exit; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W3`, left with them at `W4` beside the core owing nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as four segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of @main terminates, nothing
    faults, and the final memory holds `W4` at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide))⟩)
    (run_all m ρ)

/-- THE RESULT: the run, with the result array at what the attention pipeline leaves in it and the arguments as launched. -/
theorem run_result : θ_run defs (onTc (τ := τ) (main (F := F))) ⟨m, fun _ => 0, ρ⟩ (fun r => ∀ c : Dev nD,
      r.2.mem ((c.tc : Thread nD τ).loc main_v29) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v29 (by decide))).trans (W4_arr m ρ c 3),
     (h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide))⟩)
    (run_all m ρ)

end Cert.Kernel.Run

end
-- ==== Proof.IdealProjection.lean ====
/-
  The first pallas_call of the program: the three linear projections y_p = x_p · W_pᵀ + b_p (p = q, k, v), stacked on a
  leading axis of size 3. Grid point (p, i) reads rows [2048·i, 2048·(i+1)) of x_p, the whole of W_pᵀ and the row b_p, and writes
  the same rows of y_p. This module runs the body once on abstract blocks and packages the pipeline's proof data: after the
  body the output window's buffer holds the body's stored value, a function of the three input blocks alone.
-/
import proofs.«403177_j39006892982631_3_alg».proof.Proof.Gen.KernelIdeal.Launch
import proofs.«403177_j39006892982631_3_alg».proof.Proof.Gen.KernelIdeal.Skeleton
import proofs.«403177_j39006892982631_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of pallas_call 0 (`cc0__linear_kernel`), at the contents `V` the core's buffers hold when it is entered -/

section
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every grid point, whether the pipeline fetched it there
    or kept it from an earlier point whose block index is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every grid point, whether the pipeline fetched it there
    or kept it from an earlier point whose block index is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every grid point, whether the pipeline fetched it there
    or kept it from an earlier point whose block index is the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x2048x256 := Rect.unit (s := S1x2048x256) ![0, 0, 0] S1x2048x256.size inb_S1x2048x256_S1x2048x256_0_0_0
abbrev r0_1 : Rect S1x256x256 := Rect.unit (s := S1x256x256) ![0, 0, 0] S1x256x256.size inb_S1x256x256_S1x256x256_0_0_0
abbrev r0_2 : Rect S1x1x256 := Rect.unit (s := S1x1x256) ![0, 0, 0] S1x1x256.size inb_S1x1x256_S1x1x256_0_0_0
abbrev r0_3 : Rect S1x2048x256 := Rect.unit (s := S1x2048x256) ![0, 0, 0] S1x2048x256.size inb_S1x2048x256_S1x2048x256_0_0_0

/-- What the body leaves in the output window's staging buffer, from the input windows' blocks: its one store, of the
    whole block. -/
def out0_3 (x0 : Vec F S1x2048x256 .f32) (x1 : Vec F S1x256x256 .f32) (x2 : Vec F S1x1x256 .f32) : Vec F S1x2048x256 .bf16 :=
  View.canon [⟨r0_3, k0_pay1 (View.ld x0 r0_0) (View.ld x1 r0_1) (View.ld x2 r0_2)⟩]

/-- The one store covers the buffer. -/
theorem cover0_3 (p0 : Vec F S1x2048x256 .bf16) (y : S1x2048x256.Idx) :
    ∃ pc ∈ ([⟨r0_3, p0⟩] : List (View.Piece (Elt F) S1x2048x256 .bf16)), y ∈ pc.1.set :=
  View.cover_of_tiled [⟨r0_3, p0⟩] S1x2048x256.size (by rfl) y

set_option maxHeartbeats 1000000 in
/-- The kernel body, run on whole staging buffers that hold the inputs' blocks `x_w` (the output's buffer holding anything),
    ends with the inputs' buffers unchanged and the output's at `out0_3` of the inputs. -/
theorem sound_kernel0 (c : Dev nD) (E : Set ℕ) (i : grid0.Coords) (arg2 : Memref sig .tc .vmem S1x2048x256 .f32) (harg2 : arg2.IsWhole) (arg3 : Memref sig .tc .vmem S1x256x256 .f32) (harg3 : arg3.IsWhole) (arg4 : Memref sig .tc .vmem S1x1x256 .f32) (harg4 : arg4.IsWhole) (arg5 : Memref sig .tc .vmem S1x2048x256 .bf16) (harg5 : arg5.IsWhole)
    (x0 : Vec F S1x2048x256 .f32) (x1 : Vec F S1x256x256 .f32) (x2 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the windows' arrays as the region finds them; after the body at point `t` each
    input's buffer still at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' staging buffers hold their blocks, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end

end Cert.KernelIdeal.Run

end
-- ==== Proof.IdealAttention.lean ====
/-
  The second pallas_call of the program: single-pass attention. Grid point (b, i) reads query rows [256·i, 256·(i+1)) of batch b
  and the whole key and value arrays of batch b, and writes the same 256 rows of the output. This module runs the body once on
  abstract blocks and packages the pipeline's proof data: after the body the output window's buffer holds the body's stored value,
  a function of the three input blocks alone. (Laid out from the first pallas_call's module window by window: the two regions have
  the same number of windows and one store each.)
-/
import proofs.«403177_j39006892982631_3_alg».proof.Proof.Gen.KernelIdeal.Launch
import proofs.«403177_j39006892982631_3_alg».proof.Proof.Gen.KernelIdeal.Skeleton
import proofs.«403177_j39006892982631_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of pallas_call 1 (`cc1__attn_kernel`), at the contents `V` the core's buffers hold when it is entered -/

section
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every grid point, whether the pipeline fetched it there
    or kept it from an earlier point whose block index is the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every grid point, whether the pipeline fetched it there
    or kept it from an earlier point whose block index is the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every grid point, whether the pipeline fetched it there
    or kept it from an earlier point whose block index is the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x256x256 := Rect.unit (s := S1x256x256) ![0, 0, 0] S1x256x256.size inb_S1x256x256_S1x256x256_0_0_0
abbrev r1_1 : Rect S1x4096x256 := Rect.unit (s := S1x4096x256) ![0, 0, 0] S1x4096x256.size inb_S1x4096x256_S1x4096x256_0_0_0
abbrev r1_2 : Rect S1x4096x256 := Rect.unit (s := S1x4096x256) ![0, 0, 0] S1x4096x256.size inb_S1x4096x256_S1x4096x256_0_0_0
abbrev r1_3 : Rect S1x256x256 := Rect.unit (s := S1x256x256) ![0, 0, 0] S1x256x256.size inb_S1x256x256_S1x256x256_0_0_0

/-- What the body leaves in the output window's staging buffer, from the input windows' blocks: its one store, of the
    whole block. -/
def out1_3 (x0 : Vec F S1x256x256 .bf16) (x1 : Vec F S1x4096x256 .bf16) (x2 : Vec F S1x4096x256 .bf16) : Vec F S1x256x256 .f32 :=
  View.canon [⟨r1_3, k1_pay1 (View.ld x0 r1_0) (View.ld x1 r1_1) (View.ld x2 r1_2)⟩]

/-- The one store covers the buffer. -/
theorem cover1_3 (p0 : Vec F S1x256x256 .f32) (y : S1x256x256.Idx) :
    ∃ pc ∈ ([⟨r1_3, p0⟩] : List (View.Piece (Elt F) S1x256x256 .f32)), y ∈ pc.1.set :=
  View.cover_of_tiled [⟨r1_3, p0⟩] S1x256x256.size (by rfl) y

set_option maxHeartbeats 1000000 in
/-- The kernel body, run on whole staging buffers that hold the inputs' blocks `x_w` (the output's buffer holding anything),
    ends with the inputs' buffers unchanged and the output's at `out1_3` of the inputs. -/
theorem sound_kernel1 (c : Dev nD) (E : Set ℕ) (i : grid1.Coords) (arg2 : Memref sig .tc .vmem S1x256x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .f32) (harg5 : arg5.IsWhole)
    (x0 : Vec F S1x256x256 .bf16) (x1 : Vec F S1x4096x256 .bf16) (x2 : Vec F S1x4096x256 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the windows' arrays as the region finds them; after the body at point `t` each
    input's buffer still at its block and the output's at `out1_3` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' staging buffers hold their blocks, so the body's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end

end Cert.KernelIdeal.Run

end
-- ==== Proof.IdealRun.lean ====
/-
  The whole run of the program: host operations, the projection region, host operations, the attention region.

  The contents of the core's buffers are followed through @main as a fold from the launch memory: after the first stretch of host
  operations (W1), after the projection region, whose output array holds what the pipeline's write-backs leave and every other
  buffer is as it was (W2), after the second stretch (W3), after the attention region (W4). Each region is entered holding every
  unscoped buffer at the contents before it and is left holding them at the contents after it; the two pipelines' proof data
  are taken at their regions' entry contents. The run theorem says: every weakly fair execution terminates, nothing faults, and the
  final memory holds W4 at every unscoped buffer. Since no host operation and no region writes an argument array, W4 at an argument
  is the launch contents (the frame); W4 at the result array is what the attention pipeline leaves there.
-/
import proofs.«403177_j39006892982631_3_alg».proof.Proof.IdealProjection
import proofs.«403177_j39006892982631_3_alg».proof.Proof.IdealAttention
import proofs.«403177_j39006892982631_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the first stretch of host operations: what the projection region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the attention region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that no host operation writes and that is no window's array of either region ends as launched. -/
theorem W4_untouched (c : Dev nD) (r : Ref sig .tc) (h0 : r ∉ hostOps0_W) (h1 : r ∉ hostOps1_W)
    (hr0 : ∀ w, Pipeline.arrRef spec0 w ≠ r) (hr1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hr1
    _ = W2 m ρ c (Proc.devRef .tc r) := StableHlo.after_of_writes_sub hostOps1 _ hostOps1_writes h1
    _ = W1 m ρ c (Proc.devRef .tc r) := W2_of_ne m ρ c r hr0
    _ = W0 m ρ c (Proc.devRef .tc r) := StableHlo.after_of_writes_sub hostOps0 _ hostOps0_writes h0
    _ = m ((c : Thread nD τ).loc r) := rfl

/-! ## The proof data of both pipelines and the state carried between the segments -/

/-- Neither pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers every segment carries the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped buffers at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the `owes`: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- The projection region: entered with every unscoped buffer at `W1`, left with them at `W2`. Its windows' arrays are split out
    of the unscoped buffers at entry and put back at their final contents at exit; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every unscoped buffer at `W3`, left with them at `W4` beside the core owing nothing. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as four segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of @main terminates, nothing
    faults, and the final memory holds `W4` at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide))⟩)
    (run_all m ρ)

/-- THE RESULT: the run, with the result array at what the attention pipeline leaves in it and the arguments as launched. -/
theorem run_result : θ_run defs (onTc (τ := τ) (main (F := F))) ⟨m, fun _ => 0, ρ⟩ (fun r => ∀ c : Dev nD,
      r.2.mem ((c.tc : Thread nD τ).loc main_v29) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v29 (by decide))).trans (W4_arr m ρ c 3),
     (h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide))⟩)
    (run_all m ρ)

end Cert.KernelIdeal.Run

end
-- ==== Proof.LibIx2.lean ====
/-
  Two general readings at an entry of a rank-two result.

  A product with ONE contracted axis, into a zero accumulator, is at entry (p, n) the sum over the contracted
  coordinate k of the left operand at L k times the right at R k, once the operand indices at the contraction
  position whose one coordinate is k are known to be L k and R k (whatever the operands' shapes and whichever of
  their axes is contracted).  And a column [a, 1] broadcast along its rows to [a, b] reads, at (p, c), the
  column's entry p.
-/
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx
open scoped BigOperators

/-- A product with one contracted axis of extent K, into the zero accumulator, at entry (p, n): the sum over
    k of the left operand at L k times the right at R k, where L k and R k are the operand indices at the
    contraction position whose one coordinate is k. -/
theorem matmul_zero_ix2 {sl sr : Shape} {M N K : ℕ} (D : DotDims sl sr ⟨2, ![M, N]⟩) (hr : D.contr.rank = 1)
    (hs : D.contr.size ⟨0, by omega⟩ = K) (l : FVec Ideal sl .f32) (r : FVec Ideal sr .f32) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibIx2

end
-- ==== Proof.ProjectionBlock.lean ====
/-
  The projection body's stored value at an entry, at the exact instance. On blocks x [1, 2048, 256], w [1, 256, 256] and
  β [1, 1, 256] the body stores, at (0, r, e), the product of row r of x with column e of w, into a zero accumulator, plus β's entry e;
  narrowing to a shorter float format changes nothing at this instance.
-/
import proofs.«403177_j39006892982631_3_alg».proof.Proof.Gen.KernelIdeal.Skeleton
import proofs.«403177_j39006892982631_3_alg».proof.Proof.LibIx2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! ## Where the product reads its operands

The product contracts the left operand's column axis with the right operand's row axis. At a result entry i and a
contraction index q, the left operand is read at (i's row, q's coordinate) and the right at (q's coordinate, i's column). -/

/-- The product's left operand index keeps the result's row. -/
theorem proj_lhsIdx_row (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

/-- The product's left operand index has the contracted coordinate on its column axis. -/
theorem proj_lhsIdx_col (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

/-- The product's right operand index has the contracted coordinate on its row axis. -/
theorem proj_rhsIdx_row (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

/-- The product's right operand index keeps the result's column. -/
theorem proj_rhsIdx_col (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- Entry (0, r, e) of what the projection body stores, from its three input blocks. -/
theorem projection_payload (x0 : Vec Ideal S1x2048x256 .f32) (x1 : Vec Ideal S1x256x256 .f32) (x2 : Vec Ideal S1x1x256 .f32)
    (r : Fin 2048) (e : Fin 256) :
    (k0_pay1 (F := Ideal) x0 x1 x2 : FVec Ideal S1x2048x256 .bf16) (ix3 (0 : Fin 1) r e)
      = (∑ d : Fin 256, (x0 : FVec Ideal S1x2048x256 .f32) (ix3 (0 : Fin 1) r d) * (x1 : FVec Ideal S1x256x256 .f32) (ix3 (0 : Fin 1) d e))
        + (x2 : FVec Ideal S1x1x256 .f32) (ix3 (0 : Fin 1) (0 : Fin 1) e) := by
  unfold k0_pay1
  -- The outer cast only adds a leading unit axis: entry (0, r, e) of the result is entry (r, e) of the matrix.
  refine (shapeCast_ab_1ab_apply _ _ (0 : Fin 1) r e).trans ?_
  -- Narrowing the float format is the identity on extended reals, and a sum of arrays is read entry by entry.
  refine (truncf_apply (φ := .f32) (ψ := .bf16) _ bitsLt_bf16_f32 (ix2 r e)).trans ?_
  refine (addf_apply _ _ (ix2 r e)).trans ?_
  refine congrArg₂ (· + ·) ?_ ?_
  · -- The product into the zero accumulator, at (r, e), is the sum over the contracted coordinate k of the left
    -- operand at (r, k) times the right operand at (k, e).
    refine (Cert.LibIx2.matmul_zero_ix2 dot_S2048x256_S256x256_S2048x256_1_0_0_1_n_n rfl rfl _ _ r e
      (fun k : Fin 256 => ix2 r k) (fun k : Fin 256 => ix2 k e) ?_ ?_).trans ?_
    · -- the left operand's index: row r from the result, column k from the contraction
      intro k q hq
      funext a
      refine Fin.ext ?_
      match a with
      | ⟨0, _⟩ => exact proj_lhsIdx_row _ _
      | ⟨1, _⟩ => exact (proj_lhsIdx_col _ _).trans hq
    · -- the right operand's index: row k from the contraction, column e from the result
      intro k q hq
      funext a
      refine Fin.ext ?_
      match a with
      | ⟨0, _⟩ => exact (proj_rhsIdx_row _ _).trans hq
      | ⟨1, _⟩ => exact proj_rhsIdx_col _ _
    · -- each operand is its block with the leading unit axis dropped, its format narrowed (the identity)
      refine Finset.sum_congr rfl fun d _ => ?_
      refine congrArg₂ (· * ·) ?_ ?_
      · exact (truncf_apply (φ := .f32) (ψ := .bf16) _ bitsLt_bf16_f32 (ix2 r d)).trans (shapeCast_1ab_ab_apply _ _ r d)
      · exact (truncf_apply (φ := .f32) (ψ := .bf16) _ bitsLt_bf16_f32 (ix2 d e)).trans (shapeCast_1ab_ab_apply _ _ d e)
  · -- The one row [1, 256] of β, repeated over the 2048 rows, reads at (r, e) its entry e, which is β's (0, 0, e).
    exact (broadcastTo_1b_ab_apply _ _ r e).trans (shapeCast_1ab_ab_apply _ _ (0 : Fin 1) e)

end Cert.KernelIdeal.Run

end
-- ==== Proof.ProjectionValue.lean ====
/-
  What the projection pipeline leaves in its output array, entry by entry, at the exact instance: entry (p, r, e) of the stacked
  output is Σ_d x(p, r, d) · w(p, d, e) + β(p, 0, e), where x, w, β are the three stacked operand arrays as the region finds them.
  Grid point (p, i) writes rows [2048·i, 2048·(i+1)) of plane p; its block's entry (0, r', e) is the body's matrix product of the
  input block's row r' with the weight block's column e, plus the bias block's entry e. The blocks tile the array.
-/
import proofs.«403177_j39006892982631_3_alg».proof.Proof.IdealProjection
import proofs.«403177_j39006892982631_3_alg».proof.Proof.ProjectionBlock
import proofs.«403177_j39006892982631_3_alg».proof.Proof.LibIx2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-- The projection region's three stacked operand arrays as the region finds them, and its output array after the region. -/
abbrev stackX (c : Dev nD) : FVec Ideal S3x16384x256 .f32 := V c main_v6
abbrev stackW (c : Dev nD) : FVec Ideal S3x256x256 .f32 := V c main_v13
abbrev stackB (c : Dev nD) : FVec Ideal S3x1x256 .f32 := V c main_v18
abbrev stackOut (c : Dev nD) : FVec Ideal S3x16384x256 .bf16 := (dat0 (F := Ideal) V c).arrAt 3 cfg0.N

/-- The zero offset vector of a rank-three rectangle that starts at the origin. -/
theorem origin3 : (![0, 0, 0] : Fin 3 → Nat) = fun _ => 0 :=
  funext fun a => by match a with | ⟨0, _⟩ => rfl | ⟨1, _⟩ => rfl | ⟨2, _⟩ => rfl

/-- The four windows' block indices in closed form, decided over the 24 grid points: point t is plane t / 8 and row block
    t % 8; the input and the output move together, the weights and the bias follow the plane alone. -/
theorem block_indices : ∀ t : Fin cfg0.N,
    win0_3.index t (0 : Fin 3) = t.val / 8 ∧ win0_3.index t (1 : Fin 3) = t.val % 8 ∧ win0_3.index t (2 : Fin 3) = 0
    ∧ win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- Entry (p, r, e) of the stacked projections: row r of x_p against column e of w_p, plus β_p's entry e. -/
def projEntry (c : Dev nD) (p : Fin 3) (r : Fin 16384) (e : Fin 256) : EReal :=
  (∑ d : Fin 256, stackX V c (ix3 p r d) * stackW V c (ix3 p d e)) + stackB V c (ix3 p (0 : Fin 1) e)

/-- The stacked projections as one array. -/
def projArr (c : Dev nD) : FVec Ideal S3x16384x256 .bf16 := fun i => projEntry V c (i 0) (i 1) (i 2)

theorem projArr_apply (c : Dev nD) (p : Fin 3) (r : Fin 16384) (e : Fin 256) :
    projArr V c (ix3 p r e) = projEntry V c p r e := rfl

/-- The three input blocks at a grid point, at their literal types. -/
abbrev xblk (c : Dev nD) (t : Fin cfg0.N) : Vec Ideal S1x2048x256 .f32 := iblk0 V c 0 t
abbrev wblk (c : Dev nD) (t : Fin cfg0.N) : Vec Ideal S1x256x256 .f32 := iblk0 V c 1 t
abbrev bblk (c : Dev nD) (t : Fin cfg0.N) : Vec Ideal S1x1x256 .f32 := iblk0 V c 2 t

/-- Row r' of point t's input block is row 2048·(t % 8) + r' of plane t / 8 of the stacked input. -/
theorem xblk_entry (c : Dev nD) (t : Fin cfg0.N) (r' : Fin 2048) (d : Fin 256) (p : Fin 3) (r : Fin 16384)
    (hp : p.val = t.val / 8) (hr : r.val = 2048 * (t.val % 8) + r'.val) :
    (xblk V c t) (ix3 (0 : Fin 1) r' d) = stackX V c (ix3 p r d) := by
  obtain ⟨-, -, -, e0, e1, e2, -⟩ := block_indices t
  show stackX V c (((cfg0.win 0).blk t).view.emb (ix3 (0 : Fin 1) r' d)) = stackX V c (ix3 p r d)
  refine congrArg (stackX V c) ?_
  funext a; apply Fin.ext
  match a with
  | ⟨0, _⟩ => show win0_0.index t (0 : Fin 3) * 1 + 1 * 0 = p.val; omega
  | ⟨1, _⟩ => show win0_0.index t (1 : Fin 3) * 2048 + 1 * r'.val = r.val; omega
  | ⟨2, _⟩ => show win0_0.index t (2 : Fin 3) * 256 + 1 * d.val = d.val; omega

/-- Point t's weight block is the whole of plane t / 8 of the stacked weights. -/
theorem wblk_entry (c : Dev nD) (t : Fin cfg0.N) (d : Fin 256) (e : Fin 256) (p : Fin 3) (hp : p.val = t.val / 8) :
    (wblk V c t) (ix3 (0 : Fin 1) d e) = stackW V c (ix3 p d e) := by
  obtain ⟨-, -, -, -, -, -, e0, e1, e2, -⟩ := block_indices t
  show stackW V c (((cfg0.win 1).blk t).view.emb (ix3 (0 : Fin 1) d e)) = stackW V c (ix3 p d e)
  refine congrArg (stackW V c) ?_
  funext a; apply Fin.ext
  match a with
  | ⟨0, _⟩ => show win0_1.index t (0 : Fin 3) * 1 + 1 * 0 = p.val; omega
  | ⟨1, _⟩ => show win0_1.index t (1 : Fin 3) * 256 + 1 * d.val = d.val; omega
  | ⟨2, _⟩ => show win0_1.index t (2 : Fin 3) * 256 + 1 * e.val = e.val; omega

/-- Point t's bias block is the one row of plane t / 8 of the stacked biases. -/
theorem bblk_entry (c : Dev nD) (t : Fin cfg0.N) (e : Fin 256) (p : Fin 3) (hp : p.val = t.val / 8) :
    (bblk V c t) (ix3 (0 : Fin 1) (0 : Fin 1) e) = stackB V c (ix3 p (0 : Fin 1) e) := by
  obtain ⟨-, -, -, -, -, -, -, -, -, e0, e1, e2⟩ := block_indices t
  show stackB V c (((cfg0.win 2).blk t).view.emb (ix3 (0 : Fin 1) (0 : Fin 1) e)) = stackB V c (ix3 p (0 : Fin 1) e)
  refine congrArg (stackB V c) ?_
  funext a; apply Fin.ext
  match a with
  | ⟨0, _⟩ => show win0_2.index t (0 : Fin 3) * 1 + 1 * 0 = p.val; omega
  | ⟨1, _⟩ => show win0_2.index t (1 : Fin 3) * 1 + 1 * 0 = 0; omega
  | ⟨2, _⟩ => show win0_2.index t (2 : Fin 3) * 256 + 1 * e.val = e.val; omega

/-- What the body stores at (0, r', e) at point t is entry (t / 8, 2048·(t % 8) + r', e) of the stacked projections. -/
theorem stored_entry (c : Dev nD) (t : Fin cfg0.N) (r' : Fin 2048) (e : Fin 256) (p : Fin 3) (r : Fin 16384)
    (hp : p.val = t.val / 8) (hr : r.val = 2048 * (t.val % 8) + r'.val) :
    (k0_pay1 (F := Ideal) (xblk V c t) (wblk V c t) (bblk V c t) : FVec Ideal S1x2048x256 .bf16) (ix3 (0 : Fin 1) r' e)
      = projEntry V c p r e := by
  refine (projection_payload (xblk V c t) (wblk V c t) (bblk V c t) r' e).trans ?_
  unfold projEntry
  refine congrArg₂ (· + ·) (Finset.sum_congr rfl fun d _ => ?_) (bblk_entry V c t e p hp)
  exact congrArg₂ (· * ·) (xblk_entry V c t r' d p r hp hr) (wblk_entry V c t d e p hp)

/-- What grid point t writes back is block t of the stacked projections. -/
theorem flushed_block (c : Dev nD) (t : Fin cfg0.N) :
    (dat0 (F := Ideal) V c).flushed 3 t = ((cfg0.win 3).blk t).view.read (Elt Ideal) (projArr V c) := by
  show (cfg0.win 3).cut (grid0.coords t) ((dat0 (F := Ideal) V c).after 3 t) = _
  rw [after0_3]
  unfold out0_3
  rw [View.canon_unit_zero origin3]
  simp only [View.ld_unit_zero (S := S1x2048x256) origin3, View.ld_unit_zero (S := S1x256x256) origin3, View.ld_unit_zero (S := S1x1x256) origin3]
  have hN : cfg0.N = 24 := N_0
  have ht : t.val < 24 := by have := t.isLt; omega
  obtain ⟨o0, o1, o2, -⟩ := block_indices t
  funext y
  revert y
  show ∀ y : S1x2048x256.Idx, (k0_pay1 (F := Ideal) (xblk V c t) (wblk V c t) (bblk V c t) : FVec Ideal S1x2048x256 .bf16) y
    = projArr V c (((cfg0.win 3).blk t).view.emb y)
  intro y
  obtain ⟨a, r', e, rfl⟩ : ∃ (a : Fin 1) (r' : Fin 2048) (e : Fin 256), y = ix3 a r' e := ⟨y 0, y 1, y 2, eq_ix3 y⟩
  obtain rfl : a = 0 := Subsingleton.elim _ _
  refine (stored_entry V c t r' e ⟨t.val / 8, by omega⟩ ⟨2048 * (t.val % 8) + r'.val, by omega⟩ rfl rfl).trans ?_
  refine (projArr_apply V c _ _ _).symm.trans (congrArg (projArr V c) ?_)
  funext ax; apply Fin.ext
  match ax with
  | ⟨0, _⟩ => show t.val / 8 = win0_3.index t (0 : Fin 3) * 1 + 1 * 0; omega
  | ⟨1, _⟩ => show 2048 * (t.val % 8) + r'.val = win0_3.index t (1 : Fin 3) * 2048 + 1 * r'.val; omega
  | ⟨2, _⟩ => show e.val = win0_3.index t (2 : Fin 3) * 256 + 1 * e.val; omega

/-- An index of the output array lies in point t's block iff each coordinate lies in the block's range on its axis. -/
theorem mem_block (t : Fin cfg0.N) (i : S3x16384x256.Idx) :
    i ∈ ((cfg0.win 3).blk t).view.set ↔ ∀ a : Fin 3, win0_3.index t a * S1x2048x256.size a ≤ (i a).val
      ∧ (i a).val < win0_3.index t a * S1x2048x256.size a + S1x2048x256.size a := by
  show i ∈ ((View.whole main_v19).slice (win0_3.rect t)).set ↔ _
  rw [View.set_slice_whole, Rect.mem_set_unit]
  exact Iff.rfl

/-- The blocks tile the output array: entry (p, r, e) lies in the block of point 8·p + r / 2048. -/
theorem blocks_cover (i : S3x16384x256.Idx) :
    ∃ t : Fin cfg0.N, (cfg0.win 3).flush t = true ∧ i ∈ ((cfg0.win 3).blk t).view.set := by
  have h0 : (i 0).val < 3 := (i 0).isLt
  have h1 : (i 1).val < 16384 := (i 1).isLt
  have h2 : (i 2).val < 256 := (i 2).isLt
  have hN : cfg0.N = 24 := N_0
  obtain ⟨t, tv⟩ : ∃ t : Fin cfg0.N, t.val = (i 0).val * 8 + (i 1).val / 2048 := ⟨⟨(i 0).val * 8 + (i 1).val / 2048, by omega⟩, rfl⟩
  refine ⟨t, flush0_3 t, ?_⟩
  obtain ⟨o0, o1, o2, -⟩ := block_indices t
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- After the region the output array holds the stacked projections. -/
theorem output_array (c : Dev nD) : (dat0 (F := Ideal) V c).arrAt 3 cfg0.N = projArr V c :=
  (dat0 (F := Ideal) V c).arrAt_eq_of_cover 3 (projArr V c) (fun t _ => flushed_block V c t) blocks_cover

/-- Entry (p, r, e) of the projection region's output array after the region. -/
theorem projection_final (c : Dev nD) (p : Fin 3) (r : Fin 16384) (e : Fin 256) :
    stackOut V c (ix3 p r e)
      = (∑ d : Fin 256, stackX V c (ix3 p r d) * stackW V c (ix3 p d e)) + stackB V c (ix3 p (0 : Fin 1) e) :=
  (congrFun (output_array V c) (ix3 p r e)).trans (projArr_apply V c p r e)

end Cert.KernelIdeal.Run

end
-- ==== Proof.LibRowReduce.lean ====
/-
  Row reductions kept as a column and broadcast back, read at an entry.

  jnp.max(x, axis=-1, keepdims=True) and jnp.sum(x, axis=-1, keepdims=True) of an [a, b] array lower to a
  reduction over axis 1 into [a], a cast to the column [a, 1], and (where the column meets an [a, c] array) a
  broadcast along the rows. At entry (r, d) of that [a, c] array sits the reduction of row r: the sum of its b
  entries, or their maximum folded from the accumulator's value.
-/
import proofs.«403177_j39006892982631_3_alg».proof.Proof.LibIx2
import Idealize.ShloMosaic.Lib.Pipeline.Value
import Idealize.ShloMosaic.Lib.ValueIdx
import Idealize.ShloMosaic.PureOps.Ideal.Laws

noncomputable section

namespace Cert.LibRowReduce

open Idealize.ShloMosaic Idealize.ShloMosaic.ValueIdx Cert.LibIx2
open scoped BigOperators

/-- A vector [a] cast to the column [a, 1] reads, at (r, u), the vector's entry r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- Over the reduced index r of an [a, b] array reduced along axis 1, the source index with coordinate k on
    that axis is (r, k). -/
theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- The row sums of an [a, b] array, kept as a column and broadcast to [a, c]: at (r, d), the sum of row r. -/
theorem rowSum_keepdims_apply {φ : FTy} {a b c : ℕ} (e : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hsc : (⟨1, ![a]⟩ : Shape).ShapeCasts ⟨2, ![a, 1]⟩) (hb : (⟨2, ![a, 1]⟩ : Shape).Broadcasts ⟨2, ![a, c]⟩)
    (r : Fin a) (d : Fin c) :
    broadcastTo ⟨2, ![a, c]⟩ (shapeCast ⟨2, ![a, 1]⟩ (multiReduction .add [1] ⟨1, ![a]⟩ e acc h hφ hacc) hsc) hb (ix2 r d)
      = ∑ k : Fin b, e (ix2 r k) := by
  rw [broadcastTo_a1_ab_apply, shapeCast_a_a1_apply]
  refine (Ideal.multiReduction_add_single e acc h hφ hacc (ix1 r)).trans ?_
  show ∑ k : Fin b, e (h.lift (ix1 r) k) = _
  exact Finset.sum_congr rfl fun k _ => by rw [lift_row]

/-- The row maxima of an [a, b] array, kept as a column and broadcast to [a, c]: at (r, d), the maximum of row r
    folded from the accumulator's value. -/
theorem rowMax_keepdims_apply {φ : FTy} {a b c : ℕ} (e : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hsc : (⟨1, ![a]⟩ : Shape).ShapeCasts ⟨2, ![a, 1]⟩) (hb : (⟨2, ![a, 1]⟩ : Shape).Broadcasts ⟨2, ![a, c]⟩)
    (r : Fin a) (d : Fin c) :
    broadcastTo ⟨2, ![a, c]⟩ (shapeCast ⟨2, ![a, 1]⟩ (multiReduction .maximumf [1] ⟨1, ![a]⟩ e acc h hφ hacc) hsc) hb (ix2 r d)
      = (Finset.univ : Finset (Fin b)).fold max (Ideal.ofBits φ acc) (fun k => e (ix2 r k)) := by
  rw [broadcastTo_a1_ab_apply, shapeCast_a_a1_apply]
  refine (Ideal.multiReduction_maximumf_single e acc h hφ hacc (ix1 r)).trans ?_
  show (Finset.univ : Finset (Fin b)).fold max (Ideal.ofBits φ acc) (fun k => e (h.lift (ix1 r) k)) = _
  exact congrArg (fun f => (Finset.univ : Finset (Fin b)).fold max (Ideal.ofBits φ acc) f) (funext fun (k : Fin b) => congrArg e (lift_row h r k))

end Cert.LibRowReduce

end
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.LibSoftmax.lean ====
/-
  Softmax over a finite row of real numbers, on the extended reals.

  A row s of real numbers has a real maximum M (the fold of max from -∞ over a nonempty row); every
  weight e j = exp (s j - M) is a positive real, so their sum L is a positive real; and for real values
  v j the weighted average can divide by L before or after the sum:
      ∑ j, (e j / L) · v j  =  (∑ j, e j · v j) / L.
  In ℝ this is distributivity. On [-∞, +∞] distributivity fails at the infinities, which is why every
  entry is assumed to be a real number.
-/
import proofs.«403177_j39006892982631_3_alg».proof.Proof.LibRealVariance
import Idealize.ShloMosaic.PureOps.Ideal
import Mathlib.Data.Finset.Fold
import Mathlib.Analysis.SpecialFunctions.Exp

noncomputable section

namespace Cert.Softmax

open Idealize.ShloMosaic Cert.Alg
open scoped BigOperators

/-- The f32 pattern of -∞ denotes the bottom of the extended reals. -/
theorem ofBits_neg_inf : Ideal.ofBits .f32 0xFF800000#32 = ⊥ := by simp [Ideal.ofBits, Ideal.ieee]

/-- The f32 pattern of 0.125 denotes the real 1/8. -/
theorem ofBits_eighth : Ideal.ofBits .f32 0x3E000000#32 = ((1 / 8 : ℝ) : EReal) := by
  simp [Ideal.ofBits, Ideal.ieee, -EReal.coe_mul]; norm_num

/-- The maximum of a nonempty finite row of reals, folded from -∞, is a real: it is above some entry,
    which is above -∞, and below +∞ as every entry is. -/
theorem isReal_fold_max {ι : Type*} [Fintype ι] [Nonempty ι] (s : ι → EReal) (hs : ∀ j, IsReal (s j)) :
    IsReal ((Finset.univ : Finset ι).fold max ⊥ s) := by
  rw [isReal_iff]
  constructor
  · refine ne_of_lt ?_
    rw [Finset.fold_max_lt]
    refine ⟨bot_lt_top, fun j _ => ?_⟩
    obtain ⟨r, hr⟩ := hs j
    rw [hr]; exact EReal.coe_lt_top r
  · refine ne_of_gt ?_
    rw [Finset.lt_fold_max]
    obtain ⟨j⟩ := (inferInstance : Nonempty ι)
    obtain ⟨r, hr⟩ := hs j
    exact Or.inr ⟨j, Finset.mem_univ j, by rw [hr]; exact EReal.bot_lt_coe r⟩

/-- The exponential of a difference of two reals is a positive real. -/
theorem exp_sub_pos {x M : EReal} (hx : IsReal x) (hM : IsReal M) :
    ∃ r : ℝ, 0 < r ∧ Ideal.exp (x - M) = (r : EReal) := by
  obtain ⟨a, rfl⟩ := hx
  obtain ⟨b, rfl⟩ := hM
  refine ⟨Real.exp (a - b), Real.exp_pos _, ?_⟩
  rw [← EReal.coe_sub, Ideal.exp_coe]

/-- THE LAW. For positive real weights e and real values v over a nonempty finite row, normalising
    each weight by the total before the weighted sum equals normalising the weighted sum by the total. -/
theorem sum_div_mul_eq_div_sum {ι : Type*} [Fintype ι] [Nonempty ι] (e v : ι → EReal)
    (he : ∀ j, ∃ r : ℝ, 0 < r ∧ e j = (r : EReal)) (hv : ∀ j, IsReal (v j)) :
    ∑ j, Ideal.div (e j) (∑ j, e j) * v j = Ideal.div (∑ j, e j * v j) (∑ j, e j) := by
  choose r hr using he
  choose w hw using hv
  obtain rfl : e = fun j => (r j : EReal) := funext fun j => (hr j).2
  obtain rfl : v = fun j => (w j : EReal) := funext hw
  have hl : (0 : ℝ) < ∑ j, r j := Finset.sum_pos (fun j _ => (hr j).1) Finset.univ_nonempty
  rw [← coe_finset_sum]
  simp only [Ideal.div_coe hl.ne', ← EReal.coe_mul]
  rw [← coe_finset_sum, ← coe_finset_sum, ← EReal.coe_mul]
  congr 1
  rw [Finset.sum_mul]
  exact Finset.sum_congr rfl fun j _ => by ring

end Cert.Softmax

end
-- ==== Proof.AttentionBlock.lean ====
/-
  The attention body's stored value at an entry, at the exact instance. On blocks q [1, 256, 256], k [1, 4096, 256] and
  v [1, 4096, 256] the body forms the scores s(r, j) = (Σ_e q(r, e) · k(j, e)) · 1/16, the row maximum M(r) folded from -∞, the
  weights exp (s(r, j) - M(r)), their row sum L(r), and stores at (0, r, d) the quotient (Σ_j weight(r, j) · v(j, d)) / L(r);
  narrowing the weights to a shorter float format changes nothing at this instance.
-/
import proofs.«403177_j39006892982631_3_alg».proof.Proof.Gen.KernelIdeal.Skeleton
import proofs.«403177_j39006892982631_3_alg».proof.Proof.LibIx2
import proofs.«403177_j39006892982631_3_alg».proof.Proof.LibRowReduce
import proofs.«403177_j39006892982631_3_alg».proof.Proof.LibSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! ## The operand indices of the two products

The score product contracts the query's feature axis with the transposed key's row axis; the output product contracts the
weights' key axis with the value's row axis. In both, the left operand's axis 0 follows the result's row, its axis 1 the
contracted coordinate; the right operand's axis 0 follows the contracted coordinate, its axis 1 the result's column. -/

theorem lhs_scores_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem lhs_scores_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem rhs_scores_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem rhs_scores_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

theorem lhs_output_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_output_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_output_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_output_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-! ## The stages of the body, each read at an entry -/

/-- The f32 pattern of 0.0625 denotes the real 1/16. -/
theorem ofBits_sixteenth : Ideal.ofBits .f32 0x3D800000#32 = ((1 / 16 : ℝ) : EReal) := by
  simp [Ideal.ofBits, Ideal.ieee, -EReal.coe_mul]; norm_num

/-- The score product at (r, j): row r of the queries against row j of the keys (the keys enter transposed). -/
theorem scoreProduct_apply (q : FVec Ideal S256x256 .bf16) (k : FVec Ideal S4096x256 .bf16) (r : Fin 256) (j : Fin 4096) :
    matmul dot_S256x256_S256x4096_S256x4096_1_0_0_1_n_n none q
        (transpose S256x4096 [1, 0] k transposes_S4096x256_p1_0_S256x4096) (constant (F := Ideal) S256x4096 .f32 0x00000000#32) (ix2 r j)
      = ∑ e : Fin 256, q (ix2 r e) * k (ix2 j e) := by
  refine (Cert.LibIx2.matmul_zero_ix2 dot_S256x256_S256x4096_S256x4096_1_0_0_1_n_n rfl rfl q
    (transpose S256x4096 [1, 0] k transposes_S4096x256_p1_0_S256x4096) r j (fun e => ix2 r e) (fun e => ix2 e j)
    (fun e c hc => funext fun a => Fin.ext (by
      match a with
      | ⟨0, _⟩ => exact lhs_scores_0 _ _
      | ⟨1, _⟩ => exact (lhs_scores_1 _ _).trans hc))
    (fun e c hc => funext fun a => Fin.ext (by
      match a with
      | ⟨0, _⟩ => exact (rhs_scores_0 _ _).trans hc
      | ⟨1, _⟩ => exact rhs_scores_1 _ _))).trans ?_
  exact Finset.sum_congr rfl fun e _ =>
    congrArg (fun t => q (ix2 r e) * t) (transpose_ix2_apply k transposes_S4096x256_p1_0_S256x4096 e j)

/-- The scaled scores the body forms from the query block and the key block, as an array [256, 4096]. -/
abbrev scoreArr (x0 : FVec Ideal S1x256x256 .bf16) (x1 : FVec Ideal S1x4096x256 .bf16) : FVec Ideal S256x4096 .f32 :=
  mulf
    (matmul dot_S256x256_S256x4096_S256x4096_1_0_0_1_n_n none (shapeCast S256x256 x0 shapeCasts_S1x256x256_S256x256)
      (transpose S256x4096 [1, 0] (shapeCast S4096x256 x1 shapeCasts_S1x4096x256_S4096x256) transposes_S4096x256_p1_0_S256x4096)
      (constant (F := Ideal) S256x4096 .f32 0x00000000#32))
    (broadcast S256x4096 (Scalar.ofBits (F := Ideal) .f32 0x3D800000#32))

/-- The scaled score at (r, j): the product of query row r with key row j, times 1/16. -/
theorem scoreArr_apply (x0 : FVec Ideal S1x256x256 .bf16) (x1 : FVec Ideal S1x4096x256 .bf16) (r : Fin 256) (j : Fin 4096) :
    scoreArr x0 x1 (ix2 r j)
      = (∑ e : Fin 256, x0 (ix3 (0 : Fin 1) r e) * x1 (ix3 (0 : Fin 1) j e)) * ((1 / 16 : ℝ) : EReal) := by
  refine (mulf_apply _ _ (ix2 r j)).trans ?_
  refine congrArg₂ (fun a b : EReal => a * b) ?_ ofBits_sixteenth
  refine (scoreProduct_apply _ _ r j).trans ?_
  exact Finset.sum_congr rfl fun e _ => congrArg₂ (fun a b : EReal => a * b)
    (shapeCast_1ab_ab_apply x0 shapeCasts_S1x256x256_S256x256 r e)
    (shapeCast_1ab_ab_apply x1 shapeCasts_S1x4096x256_S4096x256 j e)

/-- The weight at (r, j) of a score array s: the exponential of the score less its row's maximum folded from -∞ (the
    maximum is kept as a column and broadcast back along the row). -/
theorem weight_apply (s : FVec Ideal S256x4096 .f32) (hφ : FKind.Formats .f32)
    (hacc : (0xFF800000#32 : BitVec (FTy.bits .f32)) = FKind.maximumf.neutral .f32 hφ) (r : Fin 256) (j : Fin 4096) :
    exp (subf s (broadcastTo S256x4096
        (shapeCast S256x1 (multiReduction .maximumf [1] S256 s 0xFF800000#32 reduces_S256x4096_S256 hφ hacc) shapeCasts_S256_S256x1)
        broadcasts_S256x1_S256x4096)) (ix2 r j)
      = Ideal.exp (s (ix2 r j) - (Finset.univ : Finset (Fin 4096)).fold max ⊥ (fun j' => s (ix2 r j'))) := by
  show Ideal.exp (s (ix2 r j) - broadcastTo S256x4096
        (shapeCast S256x1 (multiReduction .maximumf [1] S256 s 0xFF800000#32 reduces_S256x4096_S256 hφ hacc) shapeCasts_S256_S256x1)
        broadcasts_S256x1_S256x4096 (ix2 r j)) = _
  refine congrArg (fun m => Ideal.exp (s (ix2 r j) - m)) ?_
  refine (Cert.LibRowReduce.rowMax_keepdims_apply s 0xFF800000#32 reduces_S256x4096_S256 hφ hacc shapeCasts_S256_S256x1
    broadcasts_S256x1_S256x4096 r j).trans ?_
  rw [Cert.Softmax.ofBits_neg_inf]

/-- The quotient the body stores at (r, d), for a weight array w and value rows v: the weighted sum of column d of v over
    the row r of w, by that row's sum (kept as a column and broadcast along the row); the weights enter the product
    narrowed, which changes nothing here. -/
theorem quotient_apply (w : FVec Ideal S256x4096 .f32) (v : FVec Ideal S4096x256 .bf16) (hφ : FKind.Formats .f32)
    (hacc : (0x00000000#32 : BitVec (FTy.bits .f32)) = FKind.add.neutral .f32 hφ) (r d : Fin 256) :
    divf
        (matmul dot_S256x4096_S4096x256_S256x256_1_0_0_1_n_n none (truncf .bf16 w bitsLt_bf16_f32) v
          (constant (F := Ideal) S256x256 .f32 0x00000000#32))
        (broadcastTo S256x256
          (shapeCast S256x1 (multiReduction .add [1] S256 w 0x00000000#32 reduces_S256x4096_S256 hφ hacc) shapeCasts_S256_S256x1)
          broadcasts_S256x1_S256x256) (ix2 r d)
      = Ideal.div (∑ j : Fin 4096, w (ix2 r j) * v (ix2 j d)) (∑ j : Fin 4096, w (ix2 r j)) := by
  refine (divf_apply _ _ (ix2 r d)).trans ?_
  refine congrArg₂ Ideal.div ?_ ?_
  · refine (Cert.LibIx2.matmul_zero_ix2 dot_S256x4096_S4096x256_S256x256_1_0_0_1_n_n rfl rfl (truncf .bf16 w bitsLt_bf16_f32) v
      r d (fun j => ix2 r j) (fun j => ix2 j d)
      (fun j c hc => funext fun a => Fin.ext (by
        match a with
        | ⟨0, _⟩ => exact lhs_output_0 _ _
        | ⟨1, _⟩ => exact (lhs_output_1 _ _).trans hc))
      (fun j c hc => funext fun a => Fin.ext (by
        match a with
        | ⟨0, _⟩ => exact (rhs_output_0 _ _).trans hc
        | ⟨1, _⟩ => exact rhs_output_1 _ _))).trans ?_
    exact Finset.sum_congr rfl fun j _ => congrArg (fun t => t * v (ix2 j d)) (truncf_apply w bitsLt_bf16_f32 (ix2 r j))
  · exact Cert.LibRowReduce.rowSum_keepdims_apply w 0x00000000#32 reduces_S256x4096_S256 hφ hacc shapeCasts_S256_S256x1
      broadcasts_S256x1_S256x256 r d

/-- The scaled score of query row r against key row j, within one block. -/
def blkScore (x0 : FVec Ideal S1x256x256 .bf16) (x1 : FVec Ideal S1x4096x256 .bf16) (r : Fin 256) (j : Fin 4096) : EReal :=
  (∑ e : Fin 256, x0 (ix3 (0 : Fin 1) r e) * x1 (ix3 (0 : Fin 1) j e)) * ((1 / 16 : ℝ) : EReal)

/-- The unnormalised softmax weight of key row j for query row r, within one block. -/
def blkWeight (x0 : FVec Ideal S1x256x256 .bf16) (x1 : FVec Ideal S1x4096x256 .bf16) (r : Fin 256) (j : Fin 4096) : EReal :=
  Ideal.exp (blkScore x0 x1 r j - (Finset.univ : Finset (Fin 4096)).fold max ⊥ (fun j' => blkScore x0 x1 r j'))

/-- Entry (0, r, d) of what the attention body stores, from its three input blocks. -/
theorem attention_payload (x0 : Vec Ideal S1x256x256 .bf16) (x1 x2 : Vec Ideal S1x4096x256 .bf16) (r : Fin 256) (d : Fin 256) :
    (k1_pay1 (F := Ideal) x0 x1 x2 : FVec Ideal S1x256x256 .f32) (ix3 (0 : Fin 1) r d)
      = Ideal.div (∑ j : Fin 4096, blkWeight x0 x1 r j * (x2 : FVec Ideal S1x4096x256 .bf16) (ix3 (0 : Fin 1) j d))
          (∑ j : Fin 4096, blkWeight x0 x1 r j) := by
  -- every weight the body forms at row r is the stated one
  have hw : ∀ (hφ : FKind.Formats .f32) (hacc : (0xFF800000#32 : BitVec (FTy.bits .f32)) = FKind.maximumf.neutral .f32 hφ) (j : Fin 4096),
      exp (subf (scoreArr x0 x1) (broadcastTo S256x4096
          (shapeCast S256x1 (multiReduction .maximumf [1] S256 (scoreArr x0 x1) 0xFF800000#32 reduces_S256x4096_S256 hφ hacc)
            shapeCasts_S256_S256x1)
          broadcasts_S256x1_S256x4096)) (ix2 r j) = blkWeight x0 x1 r j := fun hφ hacc j => by
    refine (weight_apply (scoreArr x0 x1) hφ hacc r j).trans ?_
    unfold blkWeight blkScore
    refine congrArg₂ (fun a m : EReal => Ideal.exp (a - m)) (scoreArr_apply x0 x1 r j) ?_
    exact congrArg (fun f : Fin 4096 → EReal => (Finset.univ : Finset (Fin 4096)).fold max ⊥ f)
      (funext fun j' => scoreArr_apply x0 x1 r j')
  unfold k1_pay1
  refine (shapeCast_ab_1ab_apply _ shapeCasts_S256x256_S1x256x256 (0 : Fin 1) r d).trans ?_
  refine (quotient_apply _ _ _ _ r d).trans ?_
  refine congrArg₂ Ideal.div ?_ ?_
  · exact Finset.sum_congr rfl fun j _ => congrArg₂ (fun a b : EReal => a * b) (hw _ _ j)
      (shapeCast_1ab_ab_apply x2 shapeCasts_S1x4096x256_S4096x256 j d)
  · exact Finset.sum_congr rfl fun j _ => hw _ _ j

end Cert.KernelIdeal.Run

end
-- ==== Proof.Attention.lean ====
/-
  Scaled dot-product attention over three linear projections, entry by entry on the extended reals.

  For arrays q, k, v of shape [4, 4096, 256], weights W of shape [256, 256] and biases of shape [256]:
    proj x W β (b, s, e)      = Σ_d x(b, s, d) · W(e, d) + β(e)                    (x · Wᵀ + β)
    score (b, q, k)           = (Σ_d qp(b, q, d) · kp(b, k, d)) · 1/16              (1/16 = 1/√256)
    rowMax (b, q)             = max_k score(b, q, k), folded from -∞
    weight (b, q, k)          = exp (score(b, q, k) - rowMax(b, q))
    total (b, q)              = Σ_k weight(b, q, k)
  One program divides the weighted sum of the values by the total, the other normalises each weight first:
    outDivAfter (b, q, d)     = (Σ_k weight(b, q, k) · vp(b, k, d)) / total(b, q)
    outDivBefore (b, q, d)    = Σ_k (weight(b, q, k) / total(b, q)) · vp(b, k, d)
  When every input entry is a real number these agree: projections and scores are reals, the row maximum is a real,
  every weight is a positive real, the total is a positive real, and over the reals division distributes over the sum.
-/
import Idealize.ShloMosaic.PureOps.Ideal
import Idealize.ShloMosaic.Lib.ValueIdx
import proofs.«403177_j39006892982631_3_alg».proof.Proof.LibSoftmax

noncomputable section

namespace Cert.Attention

open Idealize.ShloMosaic Idealize.ShloMosaic.ValueIdx Cert.Alg Cert.Softmax
open scoped BigOperators

/-- An array [4, 4096, 256], a matrix [256, 256] and a row [256] of extended reals. -/
abbrev Arr3 : Type := (⟨3, ![4, 4096, 256]⟩ : Shape).Idx → EReal
abbrev Mat : Type := (⟨2, ![256, 256]⟩ : Shape).Idx → EReal
abbrev Row : Type := (⟨1, ![256]⟩ : Shape).Idx → EReal
/-- A [4, 4096, 256] array by its three coordinates. -/
abbrev T3 : Type := Fin 4 → Fin 4096 → Fin 256 → EReal

/-- Entry (b, s, e) of x · Wᵀ + β. -/
def proj (x : Arr3) (W : Mat) (β : Row) : T3 := fun b s e =>
  (∑ d : Fin 256, x (ix3 b s d) * W (ix2 e d)) + β (ix1 e)

/-- The scaled score of query row q against key row k in batch b. -/
def score (qp kp : T3) (b : Fin 4) (q k : Fin 4096) : EReal :=
  (∑ d : Fin 256, qp b q d * kp b k d) * ((1 / 16 : ℝ) : EReal)

/-- The largest score of query row q. -/
def rowMax (qp kp : T3) (b : Fin 4) (q : Fin 4096) : EReal :=
  (Finset.univ : Finset (Fin 4096)).fold max ⊥ (fun k => score qp kp b q k)

/-- The unnormalised softmax weight. -/
def weight (qp kp : T3) (b : Fin 4) (q k : Fin 4096) : EReal :=
  Ideal.exp (score qp kp b q k - rowMax qp kp b q)

/-- The sum of a query row's weights. -/
def total (qp kp : T3) (b : Fin 4) (q : Fin 4096) : EReal := ∑ k : Fin 4096, weight qp kp b q k

/-- The weighted sum of the values, divided by the total weight afterwards. -/
def outDivAfter (qp kp vp : T3) : T3 := fun b q d =>
  Ideal.div (∑ k : Fin 4096, weight qp kp b q k * vp b k d) (total qp kp b q)

/-- The sum of the normalised weights times the values. -/
def outDivBefore (qp kp vp : T3) : T3 := fun b q d =>
  ∑ k : Fin 4096, Ideal.div (weight qp kp b q k) (total qp kp b q) * vp b k d

/-- Every entry of a [4, 4096, 256] array given by coordinates is a real number. -/
def Real3 (t : T3) : Prop := ∀ b s e, IsReal (t b s e)

/-- A projection of real inputs is real. -/
theorem real_proj {x : Arr3} {W : Mat} {β : Row} (hx : ∀ i, IsReal (x i)) (hW : ∀ i, IsReal (W i)) (hβ : ∀ i, IsReal (β i)) :
    Real3 (proj x W β) := fun b s e =>
  IsReal.add (IsReal.sum _ fun d => IsReal.mul (hx _) (hW _)) (hβ _)

/-- A score of real projections is real. -/
theorem real_score {qp kp : T3} (hq : Real3 qp) (hk : Real3 kp) (b : Fin 4) (q k : Fin 4096) : IsReal (score qp kp b q k) :=
  IsReal.mul (IsReal.sum _ fun d => IsReal.mul (hq b q d) (hk b k d)) (IsReal.coe _)

/-- The row maximum of real scores is real. -/
theorem real_rowMax {qp kp : T3} (hq : Real3 qp) (hk : Real3 kp) (b : Fin 4) (q : Fin 4096) : IsReal (rowMax qp kp b q) :=
  isReal_fold_max _ fun k => real_score hq hk b q k

/-- Every weight is a positive real. -/
theorem weight_pos {qp kp : T3} (hq : Real3 qp) (hk : Real3 kp) (b : Fin 4) (q k : Fin 4096) :
    ∃ r : ℝ, 0 < r ∧ weight qp kp b q k = (r : EReal) :=
  exp_sub_pos (real_score hq hk b q k) (real_rowMax hq hk b q)

/-- THE BRIDGE: on real projections, normalising before the weighted sum or after it gives the same entry. -/
theorem outDivBefore_eq_outDivAfter {qp kp vp : T3} (hq : Real3 qp) (hk : Real3 kp) (hv : Real3 vp) :
    outDivBefore qp kp vp = outDivAfter qp kp vp := by
  funext b q d
  exact sum_div_mul_eq_div_sum (fun k => weight qp kp b q k) (fun k => vp b k d)
    (fun k => weight_pos hq hk b q k) (fun k => hv b k d)

end Cert.Attention

end
-- ==== Proof.AttentionValue.lean ====
/-
  What the attention pipeline leaves in its output array, entry by entry, at the exact instance: entry (b, q, d) is the weighted
  sum of the value rows of batch b with the softmax weights of query row q, divided by the total weight. Grid point (b, i) writes
  query rows [256·i, 256·(i+1)) of batch b; the blocks tile the array.
-/
import proofs.«403177_j39006892982631_3_alg».proof.Proof.IdealAttention
import proofs.«403177_j39006892982631_3_alg».proof.Proof.AttentionBlock
import proofs.«403177_j39006892982631_3_alg».proof.Proof.Attention
import proofs.«403177_j39006892982631_3_alg».proof.Proof.LibIx2
import proofs.«403177_j39006892982631_3_alg».proof.Proof.LibRowReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-- The attention region's three operand arrays as the region finds them, by coordinates. -/
def qArr (c : Dev nD) : Cert.Attention.T3 := fun b s e => (V c main_v22 : FVec Ideal S4x4096x256 .bf16) (ix3 b s e)
def kArr (c : Dev nD) : Cert.Attention.T3 := fun b s e => (V c main_v25 : FVec Ideal S4x4096x256 .bf16) (ix3 b s e)
def vArr (c : Dev nD) : Cert.Attention.T3 := fun b s e => (V c main_v28 : FVec Ideal S4x4096x256 .bf16) (ix3 b s e)

/-- The zero offset on three axes. -/
theorem attn_zero_offsets3 : (![0, 0, 0] : Fin 3 → Nat) = fun _ => 0 := funext fun a => by fin_cases a <;> rfl

/-- The four windows' block indices at grid point t, in closed form: the query and output windows are at (t / 16, t mod 16, 0),
    the key and value windows at (t / 16, 0, 0). -/
theorem attn_block_indices : ∀ t : Fin cfg1.N,
    win1_0.index t (0 : Fin 3) = t.val / 16 ∧ win1_0.index t (1 : Fin 3) = t.val % 16 ∧ win1_0.index t (2 : Fin 3) = 0
    ∧ win1_1.index t (0 : Fin 3) = t.val / 16 ∧ win1_1.index t (1 : Fin 3) = 0 ∧ win1_1.index t (2 : Fin 3) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = t.val % 16 ∧ win1_3.index t (2 : Fin 3) = 0 :=
  (by decide +kernel : ∀ t : Fin grid1.N, _)

/-- The whole output array as one function of its index. -/
def attnArr (c : Dev nD) : FVec Ideal S4x4096x256 .f32 := fun i =>
  Cert.Attention.outDivAfter (qArr V c) (kArr V c) (vArr V c) (i 0) (i 1) (i 2)

/-- One stored entry, when the query block's local row r is row q of batch b and the key and value blocks are batch b. -/
theorem attn_block_entry (x0 : Vec Ideal S1x256x256 .bf16) (x1 x2 : Vec Ideal S1x4096x256 .bf16) (qp kp vp : Cert.Attention.T3)
    (b : Fin 4) (q : Fin 4096) (d' : Fin 256) (r d : Fin 256)
    (h0 : ∀ e : Fin 256, (x0 : FVec Ideal S1x256x256 .bf16) (ix3 (0 : Fin 1) r e) = qp b q e)
    (h1 : ∀ (j : Fin 4096) (e : Fin 256), (x1 : FVec Ideal S1x4096x256 .bf16) (ix3 (0 : Fin 1) j e) = kp b j e)
    (h2 : ∀ j : Fin 4096, (x2 : FVec Ideal S1x4096x256 .bf16) (ix3 (0 : Fin 1) j d) = vp b j d') :
    (k1_pay1 (F := Ideal) x0 x1 x2 : FVec Ideal S1x256x256 .f32) (ix3 (0 : Fin 1) r d)
      = Cert.Attention.outDivAfter qp kp vp b q d' := by
  refine (attention_payload x0 x1 x2 r d).trans ?_
  have hs : ∀ j, blkScore x0 x1 r j = Cert.Attention.score qp kp b q j := fun j => by
    unfold blkScore Cert.Attention.score
    simp only [h0, h1]
  have hw : ∀ j, blkWeight x0 x1 r j = Cert.Attention.weight qp kp b q j := fun j => by
    unfold blkWeight Cert.Attention.weight Cert.Attention.rowMax
    simp only [hs]
  unfold Cert.Attention.outDivAfter Cert.Attention.total
  simp only [hw, h2]

/-- The query block at point t, entry by entry: local row r of the block is row 256·(t mod 16) + r of batch t / 16. -/
theorem attn_qblock_apply (c : Dev nD) (t : Fin cfg1.N) (x : S1x256x256.Idx) (k : S4x4096x256.Idx)
    (hk0 : (k 0).val = t.val / 16 + (x 0).val) (hk1 : (k 1).val = 256 * (t.val % 16) + (x 1).val) (hk2 : (k 2).val = (x 2).val) :
    (iblk1 V c 0 t : Vec Ideal S1x256x256 .bf16) x = (V c main_v22 : FVec Ideal S4x4096x256 .bf16) k := by
  obtain ⟨e0, e1, e2, -⟩ := attn_block_indices t
  unfold iblk1
  rw [View.read_apply]
  show V c main_v22 _ = V c main_v22 _
  congr 1
  funext a
  apply Fin.ext
  match a with
  | ⟨0, _⟩ => show win1_0.index t 0 * 1 + 1 * (x 0).val = (k 0).val; rw [e0, hk0]; omega
  | ⟨1, _⟩ => show win1_0.index t 1 * 256 + 1 * (x 1).val = (k 1).val; rw [e1, hk1]; omega
  | ⟨2, _⟩ => show win1_0.index t 2 * 256 + 1 * (x 2).val = (k 2).val; rw [e2, hk2]; omega

/-- The key block at point t is the whole of batch t / 16. -/
theorem attn_kblock_apply (c : Dev nD) (t : Fin cfg1.N) (x : S1x4096x256.Idx) (k : S4x4096x256.Idx)
    (hk0 : (k 0).val = t.val / 16 + (x 0).val) (hk1 : (k 1).val = (x 1).val) (hk2 : (k 2).val = (x 2).val) :
    (iblk1 V c 1 t : Vec Ideal S1x4096x256 .bf16) x = (V c main_v25 : FVec Ideal S4x4096x256 .bf16) k := by
  obtain ⟨-, -, -, e0, e1, e2, -⟩ := attn_block_indices t
  unfold iblk1
  rw [View.read_apply]
  show V c main_v25 _ = V c main_v25 _
  congr 1
  funext a
  apply Fin.ext
  match a with
  | ⟨0, _⟩ => show win1_1.index t 0 * 1 + 1 * (x 0).val = (k 0).val; rw [e0, hk0]; omega
  | ⟨1, _⟩ => show win1_1.index t 1 * 4096 + 1 * (x 1).val = (k 1).val; rw [e1, hk1]; omega
  | ⟨2, _⟩ => show win1_1.index t 2 * 256 + 1 * (x 2).val = (k 2).val; rw [e2, hk2]; omega

/-- The value block at point t is the whole of batch t / 16. -/
theorem attn_vblock_apply (c : Dev nD) (t : Fin cfg1.N) (x : S1x4096x256.Idx) (k : S4x4096x256.Idx)
    (hk0 : (k 0).val = t.val / 16 + (x 0).val) (hk1 : (k 1).val = (x 1).val) (hk2 : (k 2).val = (x 2).val) :
    (iblk1 V c 2 t : Vec Ideal S1x4096x256 .bf16) x = (V c main_v28 : FVec Ideal S4x4096x256 .bf16) k := by
  obtain ⟨-, -, -, -, -, -, e0, e1, e2, -⟩ := attn_block_indices t
  unfold iblk1
  rw [View.read_apply]
  show V c main_v28 _ = V c main_v28 _
  congr 1
  funext a
  apply Fin.ext
  match a with
  | ⟨0, _⟩ => show win1_2.index t 0 * 1 + 1 * (x 0).val = (k 0).val; rw [e0, hk0]; omega
  | ⟨1, _⟩ => show win1_2.index t 1 * 4096 + 1 * (x 1).val = (k 1).val; rw [e1, hk1]; omega
  | ⟨2, _⟩ => show win1_2.index t 2 * 256 + 1 * (x 2).val = (k 2).val; rw [e2, hk2]; omega

/-- Where an entry of the output block at point t sits in the output array. -/
theorem attn_oblock_emb (t : Fin cfg1.N) (x : S1x256x256.Idx) :
    ((((cfg1.win 3).blk t).view.emb x : S4x4096x256.Idx) 0).val = t.val / 16 + (x 0).val
    ∧ ((((cfg1.win 3).blk t).view.emb x : S4x4096x256.Idx) 1).val = 256 * (t.val % 16) + (x 1).val
    ∧ ((((cfg1.win 3).blk t).view.emb x : S4x4096x256.Idx) 2).val = (x 2).val := by
  obtain ⟨-, -, -, -, -, -, -, -, -, e0, e1, e2⟩ := attn_block_indices t
  refine ⟨?_, ?_, ?_⟩
  · show win1_3.index t 0 * 1 + 1 * (x 0).val = _; rw [e0]; omega
  · show win1_3.index t 1 * 256 + 1 * (x 1).val = _; rw [e1]; omega
  · show win1_3.index t 2 * 256 + 1 * (x 2).val = _; rw [e2]; omega

/-- What grid point t writes back is its block of the attention function of the operand arrays. -/
theorem attn_flushed_eq (c : Dev nD) (t : Fin cfg1.N) :
    (dat1 (F := Ideal) V c).flushed 3 t = ((cfg1.win 3).blk t).view.read (Elt Ideal) (attnArr V c) := by
  show (cfg1.win 3).cut (grid1.coords t) ((dat1 (F := Ideal) V c).after 3 t) = _
  rw [after1_3]
  unfold out1_3
  rw [View.canon_unit_zero attn_zero_offsets3]
  simp only [View.ld_unit_zero (S := S1x256x256) attn_zero_offsets3, View.ld_unit_zero (S := S1x4096x256) attn_zero_offsets3]
  funext y
  obtain ⟨r, d, rfl⟩ : ∃ (r d : Fin 256), y = ix3 (0 : Fin 1) r d :=
    ⟨y 1, y 2, (eq_ix3 (n0 := 1) (n1 := 256) (n2 := 256) y).trans
      (congrArg (fun z : Fin 1 => ix3 z (y 1) (y 2)) (Subsingleton.elim (α := Fin 1) (y 0) 0))⟩
  show (k1_pay1 (F := Ideal) (iblk1 V c 0 t) (iblk1 V c 1 t) (iblk1 V c 2 t) : FVec Ideal S1x256x256 .f32) (ix3 (0 : Fin 1) r d)
      = attnArr V c (((cfg1.win 3).blk t).view.emb (ix3 (0 : Fin 1) r d))
  obtain ⟨g0, g1, g2⟩ := attn_oblock_emb t (ix3 (0 : Fin 1) r d)
  unfold attnArr
  refine attn_block_entry (iblk1 V c 0 t) (iblk1 V c 1 t) (iblk1 V c 2 t) (qArr V c) (kArr V c) (vArr V c) _ _ _ r d ?_ ?_ ?_
  · intro e
    unfold qArr
    exact attn_qblock_apply V c t (ix3 (0 : Fin 1) r e) _ g0 g1 rfl
  · intro j e
    unfold kArr
    exact attn_kblock_apply V c t (ix3 (0 : Fin 1) j e) _ g0 rfl rfl
  · intro j
    unfold vArr
    exact attn_vblock_apply V c t (ix3 (0 : Fin 1) j d) _ g0 rfl g2

/-- An index of the output array lies in point t's block iff each coordinate lies in the block's range on its axis. -/
theorem attn_mem_oblock (t : Fin cfg1.N) (i : S4x4096x256.Idx) :
    i ∈ ((cfg1.win 3).blk t).view.set ↔ ∀ a : Fin 3, win1_3.index t a * S1x256x256.size a ≤ (i a).val ∧ (i a).val < win1_3.index t a * S1x256x256.size a + S1x256x256.size a := by
  show i ∈ ((View.whole main_v29).slice (win1_3.rect t)).set ↔ _
  rw [View.set_slice_whole, Rect.mem_set_unit]
  exact Iff.rfl

/-- Every index (b, q, d) of the output array lies in the block of point 16·b + q / 256. -/
theorem attn_oblocks_cover (i : S4x4096x256.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 256 := (i 2).isLt
  have hN : cfg1.N = 64 := N_1
  obtain ⟨t, ht⟩ : ∃ t : Fin cfg1.N, t.val = (i 0).val * 16 + (i 1).val / 256 :=
    ⟨⟨(i 0).val * 16 + (i 1).val / 256, by rw [hN]; omega⟩, rfl⟩
  obtain ⟨-, -, -, -, -, -, -, -, -, e0, e1, e2⟩ := attn_block_indices t
  refine ⟨t, flush1_3 t, ?_⟩
  rw [attn_mem_oblock]
  intro a
  match a with
  | ⟨0, _⟩ => show win1_3.index t 0 * 1 ≤ (i 0).val ∧ (i 0).val < win1_3.index t 0 * 1 + 1; rw [e0, ht]; omega
  | ⟨1, _⟩ => show win1_3.index t 1 * 256 ≤ (i 1).val ∧ (i 1).val < win1_3.index t 1 * 256 + 256; rw [e1, ht]; omega
  | ⟨2, _⟩ => show win1_3.index t 2 * 256 ≤ (i 2).val ∧ (i 2).val < win1_3.index t 2 * 256 + 256; rw [e2]; omega

/-- The output array after the region is the attention function of the three operand arrays. -/
theorem attention_array (c : Dev nD) : (dat1 (F := Ideal) V c).arrAt 3 cfg1.N = attnArr V c :=
  (dat1 (F := Ideal) V c).arrAt_eq_of_cover 3 (attnArr V c) (fun t _ => attn_flushed_eq V c t) attn_oblocks_cover

/-- Entry (b, q, d) of the attention region's output array after the region. -/
theorem attention_final (c : Dev nD) (b : Fin 4) (q : Fin 4096) (d : Fin 256) :
    ((dat1 (F := Ideal) V c).arrAt 3 cfg1.N : FVec Ideal S4x4096x256 .f32) (ix3 b q d)
      = Cert.Attention.outDivAfter (qArr V c) (kArr V c) (vArr V c) b q d :=
  congrFun (attention_array V c) (ix3 b q d)

end Cert.KernelIdeal.Run

end
-- ==== Proof.HostBefore.lean ====
/-
  The host operations before the projection region, read at an entry, at the exact instance.
  Before the projection region: the three inputs are flattened to [16384, 256] (row b·4096 + s) and stacked on a leading axis; the
  three weights are transposed and stacked; the three biases are stacked and given a unit middle axis.
-/
import proofs.«403177_j39006892982631_3_alg».proof.Proof.IdealRun
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! ## Layout operations read at an entry -/

section Layout
variable {α : Type}

/-- Three blocks with a unit leading axis stacked along that axis: plane p of the stack is block p. -/
theorem concatenate_three_unit_ix3 {a b : ℕ} (x : Fin 3 → (⟨3, ![1, a, b]⟩ : Shape).Idx → α)
    (h : Shape.Concatenates (([⟨⟨3, ![1, a, b]⟩, x 0⟩, ⟨⟨3, ![1, a, b]⟩, x 1⟩, ⟨⟨3, ![1, a, b]⟩, x 2⟩] :
      List ((s : Shape) × (s.Idx → α))).map (·.1)) ⟨3, ![3, a, b]⟩ 0)
    (p : Fin 3) (i : Fin a) (j : Fin b) :
    concatenate ⟨3, ![3, a, b]⟩ 0 [⟨⟨3, ![1, a, b]⟩, x 0⟩, ⟨⟨3, ![1, a, b]⟩, x 1⟩, ⟨⟨3, ![1, a, b]⟩, x 2⟩] h (ix3 p i j)
      = x p (ix3 (0 : Fin 1) i j) :=
  concatenate_apply_piece 0 _ h (ix3 p i j) p.val p.isLt ⟨3, ![1, a, b]⟩ (x p)
    (by match p with | ⟨0, _⟩ => rfl | ⟨1, _⟩ => rfl | ⟨2, _⟩ => rfl) rfl p.val
    (by match p with | ⟨0, _⟩ => rfl | ⟨1, _⟩ => rfl | ⟨2, _⟩ => rfl) (ix3 (0 : Fin 1) i j)
    (fun c hc => match c with | ⟨0, _⟩ => absurd rfl hc | ⟨1, _⟩ => rfl | ⟨2, _⟩ => rfl)
    (Nat.add_zero p.val)

/-- Three rows with a unit leading axis stacked along that axis: row p of the stack is row p. -/
theorem concatenate_three_unit_ix2 {a : ℕ} (x : Fin 3 → (⟨2, ![1, a]⟩ : Shape).Idx → α)
    (h : Shape.Concatenates (([⟨⟨2, ![1, a]⟩, x 0⟩, ⟨⟨2, ![1, a]⟩, x 1⟩, ⟨⟨2, ![1, a]⟩, x 2⟩] :
      List ((s : Shape) × (s.Idx → α))).map (·.1)) ⟨2, ![3, a]⟩ 0)
    (p : Fin 3) (i : Fin a) :
    concatenate ⟨2, ![3, a]⟩ 0 [⟨⟨2, ![1, a]⟩, x 0⟩, ⟨⟨2, ![1, a]⟩, x 1⟩, ⟨⟨2, ![1, a]⟩, x 2⟩] h (ix2 p i)
      = x p (ix2 (0 : Fin 1) i) :=
  concatenate_apply_piece 0 _ h (ix2 p i) p.val p.isLt ⟨2, ![1, a]⟩ (x p)
    (by match p with | ⟨0, _⟩ => rfl | ⟨1, _⟩ => rfl | ⟨2, _⟩ => rfl) rfl p.val
    (by match p with | ⟨0, _⟩ => rfl | ⟨1, _⟩ => rfl | ⟨2, _⟩ => rfl) (ix2 (0 : Fin 1) i)
    (fun c hc => match c with | ⟨0, _⟩ => absurd rfl hc | ⟨1, _⟩ => rfl)
    (Nat.add_zero p.val)

/-- A matrix given a unit leading axis reads, at (u, i, j), the matrix at (i, j). -/
theorem broadcastInDim_ab_1ab_apply {a b : ℕ} (h : (⟨2, ![a, b]⟩ : Shape).BroadcastsInDim ⟨3, ![1, a, b]⟩ ![1, 2])
    (x : (⟨2, ![a, b]⟩ : Shape).Idx → α) (u : Fin 1) (i : Fin a) (j : Fin b) :
    broadcastInDim ⟨3, ![1, a, b]⟩ ![1, 2] h x (ix3 u i j) = x (ix2 i j) :=
  broadcastInDim_apply _ h x _ _ fun c => match c with
    | ⟨0, _⟩ => by
        show i.val = if a = 1 then 0 else i.val
        by_cases ha : a = 1
        · rw [if_pos ha]; have := i.isLt; omega
        · rw [if_neg ha]
    | ⟨1, _⟩ => by
        show j.val = if b = 1 then 0 else j.val
        by_cases hb : b = 1
        · rw [if_pos hb]; have := j.isLt; omega
        · rw [if_neg hb]

/-- A vector given a unit leading axis reads, at (u, i), the vector at i. -/
theorem broadcastInDim_a_1a_apply {a : ℕ} (h : (⟨1, ![a]⟩ : Shape).BroadcastsInDim ⟨2, ![1, a]⟩ ![1])
    (x : (⟨1, ![a]⟩ : Shape).Idx → α) (u : Fin 1) (i : Fin a) :
    broadcastInDim ⟨2, ![1, a]⟩ ![1] h x (ix2 u i) = x (ix1 i) :=
  broadcastInDim_apply _ h x _ _ fun c => match c with
    | ⟨0, _⟩ => by
        show i.val = if a = 1 then 0 else i.val
        by_cases ha : a = 1
        · rw [if_pos ha]; have := i.isLt; omega
        · rw [if_neg ha]

/-- A matrix given a unit middle axis reads, at (i, u, j), the matrix at (i, j). -/
theorem broadcastInDim_ab_a1b_apply {a b : ℕ} (h : (⟨2, ![a, b]⟩ : Shape).BroadcastsInDim ⟨3, ![a, 1, b]⟩ ![0, 2])
    (x : (⟨2, ![a, b]⟩ : Shape).Idx → α) (i : Fin a) (u : Fin 1) (j : Fin b) :
    broadcastInDim ⟨3, ![a, 1, b]⟩ ![0, 2] h x (ix3 i u j) = x (ix2 i j) :=
  broadcastInDim_apply _ h x _ _ fun c => match c with
    | ⟨0, _⟩ => by
        show i.val = if a = 1 then 0 else i.val
        by_cases ha : a = 1
        · rw [if_pos ha]; have := i.isLt; omega
        · rw [if_neg ha]
    | ⟨1, _⟩ => by
        show j.val = if b = 1 then 0 else j.val
        by_cases hb : b = 1
        · rw [if_pos hb]; have := j.isLt; omega
        · rw [if_neg hb]

/-- A [4, 4096, 256] array flattened to [16384, 256] reads, at row b·4096 + s, the array at (b, s). -/
theorem shapeCast_flatten_rows_apply (x : (⟨3, ![4, 4096, 256]⟩ : Shape).Idx → α)
    (h : (⟨3, ![4, 4096, 256]⟩ : Shape).ShapeCasts ⟨2, ![16384, 256]⟩)
    (b : Fin 4) (s : Fin 4096) (d : Fin 256) (r : Fin 16384) (hr : r.val = b.val * 4096 + s.val) :
    shapeCast ⟨2, ![16384, 256]⟩ x h (ix2 r d) = x (ix3 b s d) :=
  shapeCast_apply x h _ _ (by
    rw [Shape.rowMajor_val_three, Shape.rowMajor_val_two]
    show (b.val * 4096 + s.val) * 256 + d.val = r.val * 256 + d.val
    rw [hr])

end Layout

variable (m : (ℓ : Loc nD τ sig) → Buf (Elt Ideal) ℓ) (ρ : Dev nD → PrngReg)

/-- The three inputs, the three weights and the three biases as the launch memory holds them, in stacking order (q, k, v). -/
def inX (c : Dev nD) : Fin 3 → FVec Ideal S4x4096x256 .f32
  | 0 => m ((c : Thread nD τ).loc main_arg0) | 1 => m ((c : Thread nD τ).loc main_arg1) | 2 => m ((c : Thread nD τ).loc main_arg2)
def inW (c : Dev nD) : Fin 3 → FVec Ideal S256x256 .f32
  | 0 => m ((c : Thread nD τ).loc main_arg3) | 1 => m ((c : Thread nD τ).loc main_arg5) | 2 => m ((c : Thread nD τ).loc main_arg7)
def inB (c : Dev nD) : Fin 3 → FVec Ideal S256 .f32
  | 0 => m ((c : Thread nD τ).loc main_arg4) | 1 => m ((c : Thread nD τ).loc main_arg6) | 2 => m ((c : Thread nD τ).loc main_arg8)

/-- Input p flattened to [16384, 256] and given a unit leading axis. -/
def flatX (c : Dev nD) (p : Fin 3) : FVec Ideal S1x16384x256 .f32 :=
  broadcastInDim S1x16384x256 ![1, 2] bcast_S16384x256_S1x16384x256_1_2
    (shapeCast S16384x256 (inX m c p) shapeCasts_S4x4096x256_S16384x256)

/-- Weight p transposed and given a unit leading axis. -/
def transW (c : Dev nD) (p : Fin 3) : FVec Ideal S1x256x256 .f32 :=
  broadcastInDim S1x256x256 ![1, 2] bcast_S256x256_S1x256x256_1_2
    (transpose S256x256 [1, 0] (inW m c p) transposes_S256x256_S256x256_1_0)

/-- Bias p given a unit leading axis. -/
def rowB (c : Dev nD) (p : Fin 3) : FVec Ideal S1x256 .f32 :=
  broadcastInDim S1x256 ![1] bcast_S256_S1x256_1 (inB m c p)

/-! ## Each stacked array as one term of the launch contents

The contents after the host operations are the fold of the operations' results over the launch contents. Each operation writes
its function of its operands' contents at its own result reference and leaves every other reference as it was, so the fold at a
result reference unfolds, operation by operation, to the composed term of the operations that feed it. -/

/-- The stacked inputs as one term of the launch contents. -/
theorem stacked_inputs_term (c : Dev nD) :
    (V1 m ρ c main_v6 : FVec Ideal S3x16384x256 .f32)
      = concatenate S3x16384x256 0 [⟨S1x16384x256, flatX m c 0⟩, ⟨S1x16384x256, flatX m c 1⟩, ⟨S1x16384x256, flatX m c 2⟩]
          concatenates_S1x16384x256_S1x16384x256_S1x16384x256_S3x16384x256_d0 := by
  show StableHlo.after hostOps0 _ (Proc.devRef .tc main_v6) = _
  rfl

/-- The stacked transposed weights as one term of the launch contents. -/
theorem stacked_weights_term (c : Dev nD) :
    (V1 m ρ c main_v13 : FVec Ideal S3x256x256 .f32)
      = concatenate S3x256x256 0 [⟨S1x256x256, transW m c 0⟩, ⟨S1x256x256, transW m c 1⟩, ⟨S1x256x256, transW m c 2⟩]
          concatenates_S1x256x256_S1x256x256_S1x256x256_S3x256x256_d0 := by
  show StableHlo.after hostOps0 _ (Proc.devRef .tc main_v13) = _
  rfl

/-- The stacked biases as one term of the launch contents. -/
theorem stacked_biases_term (c : Dev nD) :
    (V1 m ρ c main_v18 : FVec Ideal S3x1x256 .f32)
      = broadcastInDim S3x1x256 ![0, 2] bcast_S3x256_S3x1x256_0_2
          (concatenate S3x256 0 [⟨S1x256, rowB m c 0⟩, ⟨S1x256, rowB m c 1⟩, ⟨S1x256, rowB m c 2⟩]
            concatenates_S1x256_S1x256_S1x256_S3x256_d0) := by
  show StableHlo.after hostOps0 _ (Proc.devRef .tc main_v18) = _
  rfl

/-- The stacked inputs: plane p, row b·4096 + s is row (b, s) of input p. -/
theorem stacked_inputs (c : Dev nD) (p : Fin 3) (b : Fin 4) (s : Fin 4096) (d : Fin 256) (r : Fin 16384) (hr : r.val = b.val * 4096 + s.val) :
    (V1 m ρ c main_v6 : FVec Ideal S3x16384x256 .f32) (ix3 p r d) = inX m c p (ix3 b s d) := by
  refine (congrFun (stacked_inputs_term m ρ c) _).trans ?_
  refine (concatenate_three_unit_ix3 (flatX m c) _ p r d).trans ?_
  unfold flatX
  refine (broadcastInDim_ab_1ab_apply _ _ 0 r d).trans ?_
  exact shapeCast_flatten_rows_apply _ _ b s d r hr

/-- The stacked transposed weights: plane p at (d, e) is weight p at (e, d). -/
theorem stacked_weights (c : Dev nD) (p : Fin 3) (d e : Fin 256) :
    (V1 m ρ c main_v13 : FVec Ideal S3x256x256 .f32) (ix3 p d e) = inW m c p (ix2 e d) := by
  refine (congrFun (stacked_weights_term m ρ c) _).trans ?_
  refine (concatenate_three_unit_ix3 (transW m c) _ p d e).trans ?_
  unfold transW
  refine (broadcastInDim_ab_1ab_apply _ _ 0 d e).trans ?_
  exact transpose_ix2_apply _ _ d e

/-- The stacked biases. -/
theorem stacked_biases (c : Dev nD) (p : Fin 3) (e : Fin 256) :
    (V1 m ρ c main_v18 : FVec Ideal S3x1x256 .f32) (ix3 p (0 : Fin 1) e) = inB m c p (ix1 e) := by
  refine (congrFun (stacked_biases_term m ρ c) _).trans ?_
  refine (broadcastInDim_ab_a1b_apply _ _ p 0 e).trans ?_
  refine (concatenate_three_unit_ix2 (rowB m c) _ p e).trans ?_
  unfold rowB
  exact broadcastInDim_a_1a_apply _ _ 0 e

end Cert.KernelIdeal.Run

end
-- ==== Proof.HostBetween.lean ====
/-
  The host operations between the two regions, read at an entry, at the exact instance: plane p of the stacked projections is
  sliced out and its rows regrouped, row b·4096 + s becoming row (b, s) of a [4, 4096, 256] array.
-/
import proofs.«403177_j39006892982631_3_alg».proof.Proof.IdealRun
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- Plane `p` of a [3, 16384, 256] stack, cut out as a [1, 16384, 256] array, its unit axis dropped and its 16384 rows
    regrouped as [4, 4096]: the entry (b, s, e) of the result is the entry (p, b·4096 + s, e) of the stack. The two casts
    keep the row-major position, (b·4096 + s)·256 + e = r·256 + e, and the cut shifts the leading coordinate by the offset. -/
theorem plane_regrouped_apply {α : Type} (X : S3x16384x256.Idx → α) (o : Nat) (p : Fin 3) (hp : p.val = o)
    (hs : S3x16384x256.Slices ![o, 0, 0] S1x16384x256)
    (h1 : S1x16384x256.ShapeCasts S16384x256) (h2 : S16384x256.ShapeCasts S4x4096x256)
    (b : Fin 4) (s : Fin 4096) (e : Fin 256) (r : Fin 16384) (hr : r.val = b.val * 4096 + s.val) :
    shapeCast S4x4096x256 (shapeCast S16384x256 (extractStridedSlice S1x16384x256 ![o, 0, 0] X hs) h1) h2 (ix3 b s e)
      = X (ix3 p r e) := by
  -- the regrouping cast: (b, s, e) of [4, 4096, 256] and (r, e) of [16384, 256] have the same row-major position
  refine (shapeCast_apply _ h2 (ix3 b s e) (ix2 r e) (by
    rw [Shape.rowMajor_val_two, Shape.rowMajor_val_three]
    show r.val * 256 + e.val = (b.val * 4096 + s.val) * 256 + e.val
    rw [hr])).trans ?_
  -- the cast that drops the unit axis: (r, e) is (0, r, e)
  refine (shapeCast_1ab_ab_apply _ h1 r e).trans ?_
  -- the cut: (0, r, e) of the plane is (o + 0, r, e) of the stack
  exact extractStridedSlice_apply _ X hs (ix3 (0 : Fin 1) r e) (ix3 p r e) (fun a => by
    match a with
    | ⟨0, _⟩ => show p.val = o + 0; omega
    | ⟨1, _⟩ => exact (Nat.zero_add _).symm
    | ⟨2, _⟩ => exact (Nat.zero_add _).symm)

/-- Between the regions: the attention region's operand p at (b, s, e) is plane p, row b·4096 + s of the projection region's output. -/
theorem projected_q (c : Dev nD) (b : Fin 4) (s : Fin 4096) (e : Fin 256) (r : Fin 16384) (hr : r.val = b.val * 4096 + s.val) :
    (V3 m ρ c main_v22 : FVec Ideal S4x4096x256 .bf16) (ix3 b s e)
      = ((dat0 (F := Ideal) (V1 m ρ) c).arrAt 3 cfg0.N : FVec Ideal S3x16384x256 .bf16) (ix3 (0 : Fin 3) r e) := by
  -- the operand as an array: the cut at plane 0, then the two casts, of what the projection region left in its output
  have e0 : (V3 m ρ c main_v22 : S4x4096x256.Idx → EReal)
      = shapeCast S4x4096x256 (shapeCast S16384x256 (extractStridedSlice S1x16384x256 ![0, 0, 0]
          ((dat0 (F := Ideal) (V1 m ρ) c).arrAt 3 cfg0.N : S3x16384x256.Idx → EReal)
          slices_S3x16384x256_S1x16384x256_0_0_0) shapeCasts_S1x16384x256_S16384x256) shapeCasts_S16384x256_S4x4096x256 := by
    rw [← W2_arr m ρ c 3]
    show StableHlo.after hostOps1 _ (Proc.devRef .tc main_v22) = _
    after_results
    rfl
  exact (congrFun e0 _).trans (plane_regrouped_apply _ 0 0 rfl _ _ _ b s e r hr)
theorem projected_k (c : Dev nD) (b : Fin 4) (s : Fin 4096) (e : Fin 256) (r : Fin 16384) (hr : r.val = b.val * 4096 + s.val) :
    (V3 m ρ c main_v25 : FVec Ideal S4x4096x256 .bf16) (ix3 b s e)
      = ((dat0 (F := Ideal) (V1 m ρ) c).arrAt 3 cfg0.N : FVec Ideal S3x16384x256 .bf16) (ix3 (1 : Fin 3) r e) := by
  -- the operand as an array: the cut at plane 1, then the two casts, of what the projection region left in its output
  have e0 : (V3 m ρ c main_v25 : S4x4096x256.Idx → EReal)
      = shapeCast S4x4096x256 (shapeCast S16384x256 (extractStridedSlice S1x16384x256 ![1, 0, 0]
          ((dat0 (F := Ideal) (V1 m ρ) c).arrAt 3 cfg0.N : S3x16384x256.Idx → EReal)
          slices_S3x16384x256_S1x16384x256_1_0_0) shapeCasts_S1x16384x256_S16384x256) shapeCasts_S16384x256_S4x4096x256 := by
    rw [← W2_arr m ρ c 3]
    show StableHlo.after hostOps1 _ (Proc.devRef .tc main_v25) = _
    after_results
    rfl
  exact (congrFun e0 _).trans (plane_regrouped_apply _ 1 1 rfl _ _ _ b s e r hr)
theorem projected_v (c : Dev nD) (b : Fin 4) (s : Fin 4096) (e : Fin 256) (r : Fin 16384) (hr : r.val = b.val * 4096 + s.val) :
    (V3 m ρ c main_v28 : FVec Ideal S4x4096x256 .bf16) (ix3 b s e)
      = ((dat0 (F := Ideal) (V1 m ρ) c).arrAt 3 cfg0.N : FVec Ideal S3x16384x256 .bf16) (ix3 (2 : Fin 3) r e) := by
  -- the operand as an array: the cut at plane 2, then the two casts, of what the projection region left in its output
  have e0 : (V3 m ρ c main_v28 : S4x4096x256.Idx → EReal)
      = shapeCast S4x4096x256 (shapeCast S16384x256 (extractStridedSlice S1x16384x256 ![2, 0, 0]
          ((dat0 (F := Ideal) (V1 m ρ) c).arrAt 3 cfg0.N : S3x16384x256.Idx → EReal)
          slices_S3x16384x256_S1x16384x256_2_0_0) shapeCasts_S1x16384x256_S16384x256) shapeCasts_S16384x256_S4x4096x256 := by
    rw [← W2_arr m ρ c 3]
    show StableHlo.after hostOps1 _ (Proc.devRef .tc main_v28) = _
    after_results
    rfl
  exact (congrFun e0 _).trans (plane_regrouped_apply _ 2 2 rfl _ _ _ b s e r hr)

end Cert.KernelIdeal.Run

end
-- ==== Proof.KernelResult.lean ====
/-
  The kernel program's result, entry by entry, as a function of the nine argument arrays: entry (b, q, d) is the weighted sum of
  the value projections of batch b with the softmax weights of query row q, divided by the total weight, where the query, key and
  value projections are x · Wᵀ + β of the three inputs. It is read off the run in four steps: the attention region's output from
  its three operands; those operands as planes of the projection region's output with rows regrouped; that output from the
  three stacked operands; and the stacked operands from the arguments.
-/
import proofs.«403177_j39006892982631_3_alg».proof.Proof.IdealRun
import proofs.«403177_j39006892982631_3_alg».proof.Proof.ProjectionValue
import proofs.«403177_j39006892982631_3_alg».proof.Proof.AttentionValue
import proofs.«403177_j39006892982631_3_alg».proof.Proof.HostBefore
import proofs.«403177_j39006892982631_3_alg».proof.Proof.HostBetween
import proofs.«403177_j39006892982631_3_alg».proof.Proof.Attention

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- Plane p of the projection region's output, with rows regrouped, is the projection of input p. -/
theorem plane_is_projection (c : Dev nD) (p : Fin 3) (b : Fin 4) (s : Fin 4096) (e : Fin 256) (r : Fin 16384)
    (hr : r.val = b.val * 4096 + s.val) :
    stackOut (V1 m ρ) c (ix3 p r e) = Cert.Attention.proj (inX m c p) (inW m c p) (inB m c p) b s e := by
  refine (projection_final (V1 m ρ) c p r e).trans ?_
  unfold Cert.Attention.proj
  congr 1
  · exact Finset.sum_congr rfl fun d _ => by
      rw [show stackX (V1 m ρ) c (ix3 p r d) = inX m c p (ix3 b s d) from stacked_inputs m ρ c p b s d r hr,
        show stackW (V1 m ρ) c (ix3 p d e) = inW m c p (ix2 e d) from stacked_weights m ρ c p d e]
  · exact stacked_biases m ρ c p e

/-- The row b·4096 + s of a [16384, ·] array. -/
def flatRow (b : Fin 4) (s : Fin 4096) : Fin 16384 := ⟨b.val * 4096 + s.val, by have := b.isLt; have := s.isLt; omega⟩

/-- The attention region's three operands are the three projections. -/
theorem qArr_eq (c : Dev nD) : qArr (V3 m ρ) c = Cert.Attention.proj (inX m c 0) (inW m c 0) (inB m c 0) := by
  funext b s e
  exact (projected_q m ρ c b s e (flatRow b s) rfl).trans (plane_is_projection m ρ c 0 b s e (flatRow b s) rfl)
theorem kArr_eq (c : Dev nD) : kArr (V3 m ρ) c = Cert.Attention.proj (inX m c 1) (inW m c 1) (inB m c 1) := by
  funext b s e
  exact (projected_k m ρ c b s e (flatRow b s) rfl).trans (plane_is_projection m ρ c 1 b s e (flatRow b s) rfl)
theorem vArr_eq (c : Dev nD) : vArr (V3 m ρ) c = Cert.Attention.proj (inX m c 2) (inW m c 2) (inB m c 2) := by
  funext b s e
  exact (projected_v m ρ c b s e (flatRow b s) rfl).trans (plane_is_projection m ρ c 2 b s e (flatRow b s) rfl)

/-- Entry (b, q, d) of the kernel program's result. -/
theorem kernel_result (c : Dev nD) (b : Fin 4) (q : Fin 4096) (d : Fin 256) :
    ((dat1 (F := Ideal) (V3 m ρ) c).arrAt 3 cfg1.N : FVec Ideal S4x4096x256 .f32) (ix3 b q d)
      = Cert.Attention.outDivAfter (Cert.Attention.proj (inX m c 0) (inW m c 0) (inB m c 0))
          (Cert.Attention.proj (inX m c 1) (inW m c 1) (inB m c 1)) (Cert.Attention.proj (inX m c 2) (inW m c 2) (inB m c 2)) b q d := by
  rw [attention_final (V3 m ρ) c b q d, qArr_eq, kArr_eq, vArr_eq]

end Cert.KernelIdeal.Run

end
-- ==== Proof.RefValue.lean ====
/-
  The reference program's result, entry by entry, at the exact instance: entry (b, q, d) is the sum over the key rows of the
  normalised softmax weight times the value projection, the scores scaled by 1/√256 = 1/16, the row maximum taken once more
  against -∞ (which changes nothing).
-/
import proofs.«403177_j39006892982631_3_alg».proof.Defs
import proofs.«403177_j39006892982631_3_alg».proof.Proof.Gen.ReferenceIdeal.Run
import proofs.«403177_j39006892982631_3_alg».proof.Proof.Gen.ReferenceIdeal.Read
import proofs.«403177_j39006892982631_3_alg».proof.Proof.Attention
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

/-- Entry (b, s, e) of the query projection: the dot product of row (b, s) of the input with row e of the weight matrix, plus the bias at e. -/
theorem proj_query_entry (x0 : FVec Ideal S4x4096x256 .f32) (x3 : FVec Ideal S256x256 .f32) (x4 : FVec Ideal S256 .f32)
    (b : Fin 4) (s : Fin 4096) (e : Fin 256) :
    (val_main_v3 (F := Ideal) x0 x3 x4) (ix3 b s e) = Cert.Attention.proj x0 x3 x4 b s e := by
  rw [val_main_v3_apply, val_main_v0_apply, val_main_v2_apply, val_main_v1_apply]
  have hl : ∀ k : Fin 256, lidx_main_v0 (ix3 b s e) k = ix3 b s k := fun k =>
    funext fun a => Fin.ext (by match a with | ⟨0, _⟩ => rfl | ⟨1, _⟩ => rfl | ⟨2, _⟩ => rfl)
  have hr : ∀ k : Fin 256, ridx_main_v0 (ix3 b s e) k = ix2 e k := fun k =>
    funext fun a => Fin.ext (by match a with | ⟨0, _⟩ => rfl | ⟨1, _⟩ => rfl)
  have hb : idx_main_v1 (idx_main_v2 (ix3 b s e)) = ix1 e :=
    funext fun a => Fin.ext (by match a with | ⟨0, _⟩ => rfl)
  simp only [hl, hr, hb, Ideal.addf_def]
  rfl

/-- Entry (b, s, e) of the key projection, the same expression of its own three arrays. -/
theorem proj_key_entry (x1 : FVec Ideal S4x4096x256 .f32) (x5 : FVec Ideal S256x256 .f32) (x6 : FVec Ideal S256 .f32)
    (b : Fin 4) (s : Fin 4096) (e : Fin 256) :
    (val_main_v7 (F := Ideal) x1 x5 x6) (ix3 b s e) = Cert.Attention.proj x1 x5 x6 b s e := by
  rw [val_main_v7_apply, val_main_v4_apply, val_main_v6_apply, val_main_v5_apply]
  have hl : ∀ k : Fin 256, lidx_main_v4 (ix3 b s e) k = ix3 b s k := fun k =>
    funext fun a => Fin.ext (by match a with | ⟨0, _⟩ => rfl | ⟨1, _⟩ => rfl | ⟨2, _⟩ => rfl)
  have hr : ∀ k : Fin 256, ridx_main_v4 (ix3 b s e) k = ix2 e k := fun k =>
    funext fun a => Fin.ext (by match a with | ⟨0, _⟩ => rfl | ⟨1, _⟩ => rfl)
  have hb : idx_main_v5 (idx_main_v6 (ix3 b s e)) = ix1 e :=
    funext fun a => Fin.ext (by match a with | ⟨0, _⟩ => rfl)
  simp only [hl, hr, hb, Ideal.addf_def]
  rfl

/-- Entry (b, s, e) of the value projection, the same expression of its own three arrays. -/
theorem proj_value_entry (x2 : FVec Ideal S4x4096x256 .f32) (x7 : FVec Ideal S256x256 .f32) (x8 : FVec Ideal S256 .f32)
    (b : Fin 4) (s : Fin 4096) (e : Fin 256) :
    (val_main_v11 (F := Ideal) x2 x7 x8) (ix3 b s e) = Cert.Attention.proj x2 x7 x8 b s e := by
  rw [val_main_v11_apply, val_main_v8_apply, val_main_v10_apply, val_main_v9_apply]
  have hl : ∀ k : Fin 256, lidx_main_v8 (ix3 b s e) k = ix3 b s k := fun k =>
    funext fun a => Fin.ext (by match a with | ⟨0, _⟩ => rfl | ⟨1, _⟩ => rfl | ⟨2, _⟩ => rfl)
  have hr : ∀ k : Fin 256, ridx_main_v8 (ix3 b s e) k = ix2 e k := fun k =>
    funext fun a => Fin.ext (by match a with | ⟨0, _⟩ => rfl | ⟨1, _⟩ => rfl)
  have hb : idx_main_v9 (idx_main_v10 (ix3 b s e)) = ix1 e :=
    funext fun a => Fin.ext (by match a with | ⟨0, _⟩ => rfl)
  simp only [hl, hr, hb, Ideal.addf_def]
  rfl

/-- The f32 pattern of 256.0 denotes the real 256. -/
theorem ofBits_256 : Ideal.ofBits .f32 0x43800000#32 = ((256 : ℝ) : EReal) := by
  simp [Ideal.ofBits, Ideal.ieee, -EReal.coe_mul]; norm_num

/-- The square root of 256 is 16. -/
theorem sqrt_256 : Real.sqrt 256 = 16 := by
  rw [show (256 : ℝ) = 16 ^ 2 by norm_num]
  exact Real.sqrt_sq (by norm_num)

/-- The scale 1 / √256 is the real number 1/16. -/
theorem scale_value (i : S_.Idx) : val_main_v13 (F := Ideal) i = ((1 / 16 : ℝ) : EReal) := by
  rw [val_main_v13_apply, val_main_cst_0_apply, val_main_v12_apply, val_main_cst_apply]
  rw [Ideal.ofBits_def, Ideal.ofBits_def, Ideal.hostUnary_sqrt_def, Ideal.hostDivf_def, ofBits_256, Cert.Alg.ofBits_one,
    Ideal.sqrt_coe, if_neg (by norm_num), sqrt_256, Ideal.div_coe (by norm_num), ← EReal.coe_mul, one_mul]

/-- Entry (b, q, k) of the scaled scores: the dot product of query row q and key row k of batch b, times 1/16. -/
theorem score_entry (x0 x1 : FVec Ideal S4x4096x256 .f32) (x3 : FVec Ideal S256x256 .f32) (x4 : FVec Ideal S256 .f32)
    (x5 : FVec Ideal S256x256 .f32) (x6 : FVec Ideal S256 .f32) (b : Fin 4) (q k : Fin 4096) :
    (val_main_v16 (F := Ideal) x0 x1 x3 x4 x5 x6) (ix3 b q k)
      = Cert.Attention.score (Cert.Attention.proj x0 x3 x4) (Cert.Attention.proj x1 x5 x6) b q k := by
  rw [val_main_v16_apply, val_main_v14_apply, val_main_v15_apply, scale_value]
  have hl : ∀ d : Fin 256, lidx_main_v14 (ix3 b q k) d = ix3 b q d := fun d =>
    funext fun a => Fin.ext (by match a with | ⟨0, _⟩ => rfl | ⟨1, _⟩ => rfl | ⟨2, _⟩ => rfl)
  have hr : ∀ d : Fin 256, ridx_main_v14 (ix3 b q k) d = ix3 b k d := fun d =>
    funext fun a => Fin.ext (by match a with | ⟨0, _⟩ => rfl | ⟨1, _⟩ => rfl | ⟨2, _⟩ => rfl)
  simp only [hl, hr, proj_query_entry, proj_key_entry, Ideal.mulf_def]
  rfl

/-- In a [4, 4096, 4096] array reduced along its last axis, the source index over (b, q) with coordinate k on that axis
    is (b, q, k). -/
theorem lift_last_axis (h : S4x4096x4096.Reduces [2] S4x4096) (b : Fin 4) (q k : Fin 4096) :
    h.lift (ix2 b q) k = ix3 b q k := by
  funext c
  match c with
  | ⟨0, _⟩ => exact Fin.ext rfl
  | ⟨1, _⟩ => exact Fin.ext rfl
  | ⟨2, _⟩ => exact Fin.ext rfl

/-- The maximum-reduction of a [4, 4096, 4096] array along its last axis from -∞: at (b, q), the maximum of row (b, q)
    folded from the bottom of the extended reals. -/
theorem hostRowMax_entry (y : FVec Ideal S4x4096x4096 .f32) (b : Fin 4) (q : Fin 4096) :
    Host.reduce FloatOps.maximumf y (val_main_cst_1 (F := Ideal)) reducesTo_S4x4096x4096_S4x4096_d2 h_S_ (ix2 b q)
      = (Finset.univ : Finset (Fin 4096)).fold max ⊥ (fun k => y (ix3 b q k)) := by
  have h : S4x4096x4096.Reduces [2] S4x4096 := by decide
  rw [Host.reduce_eq_fold_single FloatOps.maximumf y _ reducesTo_S4x4096x4096_S4x4096_d2 h h_S_]
  rw [val_main_cst_1_apply, Ideal.ofBits_def, Cert.Softmax.ofBits_neg_inf]
  show (Finset.univ : Finset (Fin 4096)).fold max ⊥ (fun k => y (h.lift (ix2 b q) k)) = _
  exact congrArg (fun f => (Finset.univ : Finset (Fin 4096)).fold max ⊥ f)
    (funext fun k => congrArg y (lift_last_axis h b q k))

/-- Entry (b, q) of the row maxima: the largest scaled score of query row q. -/
theorem rowMax_entry (x0 x1 : FVec Ideal S4x4096x256 .f32) (x3 : FVec Ideal S256x256 .f32) (x4 : FVec Ideal S256 .f32)
    (x5 : FVec Ideal S256x256 .f32) (x6 : FVec Ideal S256 .f32) (b : Fin 4) (q : Fin 4096) :
    (val_main_v17 (F := Ideal) x0 x1 x3 x4 x5 x6) (ix2 b q) = Cert.Attention.rowMax (Cert.Attention.proj x0 x3 x4) (Cert.Attention.proj x1 x5 x6) b q := by
  unfold val_main_v17
  rw [hostRowMax_entry]
  unfold Cert.Attention.rowMax
  exact congrArg (fun f => (Finset.univ : Finset (Fin 4096)).fold max ⊥ f)
    (funext fun k => score_entry x0 x1 x3 x4 x5 x6 b q k)

/-- The maximum of -∞ and the row maximum is the row maximum. -/
theorem rowMax_against_bot_entry (x0 x1 : FVec Ideal S4x4096x256 .f32) (x3 : FVec Ideal S256x256 .f32) (x4 : FVec Ideal S256 .f32)
    (x5 : FVec Ideal S256x256 .f32) (x6 : FVec Ideal S256 .f32) (b : Fin 4) (q : Fin 4096) :
    (val_main_v19 (F := Ideal) x0 x1 x3 x4 x5 x6) (ix2 b q) = Cert.Attention.rowMax (Cert.Attention.proj x0 x3 x4) (Cert.Attention.proj x1 x5 x6) b q := by
  rw [val_main_v19_apply, val_main_v18_apply, val_main_cst_2_apply, rowMax_entry, Ideal.maximumf_def, Ideal.ofBits_def,
    Cert.Softmax.ofBits_neg_inf]
  exact max_eq_right bot_le

/-- Entry (b, q, k) of the exponentials: the unnormalised softmax weight. -/
theorem weight_entry (x0 x1 : FVec Ideal S4x4096x256 .f32) (x3 : FVec Ideal S256x256 .f32) (x4 : FVec Ideal S256 .f32)
    (x5 : FVec Ideal S256x256 .f32) (x6 : FVec Ideal S256 .f32) (b : Fin 4) (q k : Fin 4096) :
    (val_main_v23 (F := Ideal) x0 x1 x3 x4 x5 x6) (ix3 b q k) = Cert.Attention.weight (Cert.Attention.proj x0 x3 x4) (Cert.Attention.proj x1 x5 x6) b q k := by
  rw [val_main_v23_apply, val_main_v22_apply, val_main_v21_apply, val_main_v20_apply, score_entry]
  have hi : idx_main_v20 (idx_main_v21 (ix3 b q k)) = ix2 b q :=
    funext fun a => Fin.ext (by match a with | ⟨0, _⟩ => rfl | ⟨1, _⟩ => rfl)
  rw [hi, rowMax_against_bot_entry, Ideal.hostUnary_exp_def, Ideal.subf_def]
  rfl

/-- Entry (b, q) of the row sums of the exponentials: the total weight of query row q (the sum starts from 0). -/
theorem total_entry (x0 x1 : FVec Ideal S4x4096x256 .f32) (x3 : FVec Ideal S256x256 .f32) (x4 : FVec Ideal S256 .f32)
    (x5 : FVec Ideal S256x256 .f32) (x6 : FVec Ideal S256 .f32) (b : Fin 4) (q : Fin 4096) :
    (val_main_v24 (F := Ideal) x0 x1 x3 x4 x5 x6) (ix2 b q) = Cert.Attention.total (Cert.Attention.proj x0 x3 x4) (Cert.Attention.proj x1 x5 x6) b q := by
  rw [val_main_v24_apply, val_main_cst_3_apply, Ideal.ofBits_def, Ideal.ofBits_zero_f32, zero_add]
  have hi : ∀ k : Fin 4096, idx_main_v24 (ix2 b q) k = ix3 b q k := fun k =>
    funext fun a => Fin.ext (by match a with | ⟨0, _⟩ => rfl | ⟨1, _⟩ => rfl | ⟨2, _⟩ => rfl)
  simp only [hi, weight_entry]
  rfl

/-- Entry (b, q, k) of the normalised weights: the weight divided by its row's total. -/
theorem normalised_weight_entry (x0 x1 : FVec Ideal S4x4096x256 .f32) (x3 : FVec Ideal S256x256 .f32) (x4 : FVec Ideal S256 .f32)
    (x5 : FVec Ideal S256x256 .f32) (x6 : FVec Ideal S256 .f32) (b : Fin 4) (q k : Fin 4096) :
    (val_main_v27 (F := Ideal) x0 x1 x3 x4 x5 x6) (ix3 b q k)
      = Ideal.div (Cert.Attention.weight (Cert.Attention.proj x0 x3 x4) (Cert.Attention.proj x1 x5 x6) b q k) (Cert.Attention.total (Cert.Attention.proj x0 x3 x4) (Cert.Attention.proj x1 x5 x6) b q) := by
  rw [val_main_v27_apply, val_main_v26_apply, val_main_v25_apply, weight_entry]
  have hi : idx_main_v25 (idx_main_v26 (ix3 b q k)) = ix2 b q :=
    funext fun a => Fin.ext (by match a with | ⟨0, _⟩ => rfl | ⟨1, _⟩ => rfl)
  rw [hi, total_entry, Ideal.hostDivf_def]

/-- Entry (b, q, d) of the reference's result as a function of the nine argument arrays. -/
theorem reference_result (x0 x1 x2 : FVec Ideal S4x4096x256 .f32) (x3 : FVec Ideal S256x256 .f32) (x4 : FVec Ideal S256 .f32)
    (x5 : FVec Ideal S256x256 .f32) (x6 : FVec Ideal S256 .f32) (x7 : FVec Ideal S256x256 .f32) (x8 : FVec Ideal S256 .f32)
    (b : Fin 4) (q : Fin 4096) (d : Fin 256) :
    (val_main_v28 (F := Ideal) x0 x1 x2 x3 x4 x5 x6 x7 x8 : FVec Ideal S4x4096x256 .f32) (ix3 b q d)
      = Cert.Attention.outDivBefore (Cert.Attention.proj x0 x3 x4) (Cert.Attention.proj x1 x5 x6) (Cert.Attention.proj x2 x7 x8) b q d := by
  rw [val_main_v28_apply]
  have hl : ∀ k : Fin 4096, lidx_main_v28 (ix3 b q d) k = ix3 b q k := fun k =>
    funext fun a => Fin.ext (by match a with | ⟨0, _⟩ => rfl | ⟨1, _⟩ => rfl | ⟨2, _⟩ => rfl)
  have hr : ∀ k : Fin 4096, ridx_main_v28 (ix3 b q d) k = ix3 b k d := fun k =>
    funext fun a => Fin.ext (by match a with | ⟨0, _⟩ => rfl | ⟨1, _⟩ => rfl | ⟨2, _⟩ => rfl)
  simp only [hl, hr, normalised_weight_entry, proj_value_entry]
  rfl

end Cert.ReferenceIdeal.RefValue

end
-- ==== Proof.Finite.lean ====
/-
  Under the precondition every entry of every argument array is a real number: the precondition is the conjunction, over the
  nine arrays, of "every entry's absolute value is below +∞", and an extended real whose absolute value is below +∞ is a real.
-/
import proofs.«403177_j39006892982631_3_alg».proof.Defs
import proofs.«403177_j39006892982631_3_alg».proof.Proof.LibRealVariance
import Idealize.ShloMosaic.Lib.ReduceAll
import Idealize.ShloMosaic.Lib.ValueIdx

set_option maxRecDepth 16384

noncomputable section

namespace Cert.KernelIdeal.Finite

open Cert.KernelIdeal Idealize.ShloMosaic Idealize.ShloMosaic.TcCoe Idealize.ShloMosaic.ValueIdx Idealize.SL.Sem Cert.Alg

/-- The f32 pattern 0x7F800000 denotes +∞. -/
theorem ofBits_pos_inf : Ideal.ofBits .f32 0x7F800000#32 = (⊤ : EReal) := by
  simp [Ideal.ofBits, Ideal.ieee]

/-- One conjunct of the precondition, at any shape: if the bits "|x i| is below the +∞ pattern", reduced by "and" over
    every axis from the initial bit 1, give 1, then every entry of x is a real number. -/
theorem isReal_of_all_abs_lt_inf {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  -- the rank-zero index set has one element, so the reduction is over every entry: each compared bit is 1
  haveI : Subsingleton (⟨0, ![]⟩ : Shape).Idx := ⟨fun a b => funext fun d => d.elim0⟩
  have h1 := Host.reduce_andi_all _ _ hr hu ix0 e i
  -- that bit is the decision of max (x i) (-(x i)) < ⊤: the absolute value is max x (-x), the broadcast scalar is ⊤
  have h2 : max (x i) (-(x i)) < (⊤ : EReal) := by
    have h3 : BitVec.ofBool (decide (max (x i) (-(x i)) < Ideal.ofBits .f32 0x7F800000#32)) = 1#1 := h1
    rw [ofBits_pos_inf] at h3
    by_contra hn
    rw [decide_eq_false hn] at h3
    exact absurd h3 (by decide)
  -- an extended real whose absolute value is below +∞ is neither infinity
  exact isReal_of_abs_lt_top h2

variable [hPre : Cert.Pre_finite_inputs.Facts] [hK : Cert.KernelIdeal.Facts]

/-- Under the precondition, on every core every entry of each of the nine argument arrays is a real number. -/
theorem real_args (m : (ℓ : Loc nD τ sig) → Buf (Elt Ideal) ℓ) (h : Cert.Pre_KernelIdeal m) (c : Dev nD) :
    (∀ i, IsReal ((m ((c.tc : Thread nD τ).loc main_arg0) : FVec Ideal S4x4096x256 .f32) i))
    ∧ (∀ i, IsReal ((m ((c.tc : Thread nD τ).loc main_arg1) : FVec Ideal S4x4096x256 .f32) i))
    ∧ (∀ i, IsReal ((m ((c.tc : Thread nD τ).loc main_arg2) : FVec Ideal S4x4096x256 .f32) i))
    ∧ (∀ i, IsReal ((m ((c.tc : Thread nD τ).loc main_arg3) : FVec Ideal S256x256 .f32) i))
    ∧ (∀ i, IsReal ((m ((c.tc : Thread nD τ).loc main_arg4) : FVec Ideal S256 .f32) i))
    ∧ (∀ i, IsReal ((m ((c.tc : Thread nD τ).loc main_arg5) : FVec Ideal S256x256 .f32) i))
    ∧ (∀ i, IsReal ((m ((c.tc : Thread nD τ).loc main_arg6) : FVec Ideal S256 .f32) i))
    ∧ (∀ i, IsReal ((m ((c.tc : Thread nD τ).loc main_arg7) : FVec Ideal S256x256 .f32) i))
    ∧ (∀ i, IsReal ((m ((c.tc : Thread nD τ).loc main_arg8) : FVec Ideal S256 .f32) i)) := by
  -- the precondition on this core, read at the one index of its rank-zero result
  have h0 := congrFun (h c) ix0
  dsimp only [Cert.Pre_finite_inputs.fn, Cert.Pre_finite_inputs.fn_part1, Cert.Pre_finite_inputs.fn_part2, andi] at h0
  -- it is a left-nested conjunction of nine bits, the last array's outermost: peel them off from the outside
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  -- each bit is "every entry's absolute value is below +∞" for one array
  exact ⟨fun i => isReal_of_all_abs_lt_inf _ _ _ _ h0 i, fun i => isReal_of_all_abs_lt_inf _ _ _ _ h1 i,
    fun i => isReal_of_all_abs_lt_inf _ _ _ _ h2 i, fun i => isReal_of_all_abs_lt_inf _ _ _ _ h3 i,
    fun i => isReal_of_all_abs_lt_inf _ _ _ _ h4 i, fun i => isReal_of_all_abs_lt_inf _ _ _ _ h5 i,
    fun i => isReal_of_all_abs_lt_inf _ _ _ _ h6 i, fun i => isReal_of_all_abs_lt_inf _ _ _ _ h7 i,
    fun i => isReal_of_all_abs_lt_inf _ _ _ _ h8 i⟩

end Cert.KernelIdeal.Finite

end
-- ==== Proof.Bridge.lean ====
/-
  The two programs' results are one array. Entry by entry the kernel program divides the weighted sum of the values by the total
  weight and the reference normalises each weight first; under the precondition every argument entry is a real number, so the
  projections are real and the two forms agree.
-/
import proofs.«403177_j39006892982631_3_alg».proof.Proof.KernelResult
import proofs.«403177_j39006892982631_3_alg».proof.Proof.RefValue
import proofs.«403177_j39006892982631_3_alg».proof.Proof.Finite
import proofs.«403177_j39006892982631_3_alg».proof.Proof.Attention
import proofs.«403177_j39006892982631_3_alg».proof.Proof.Gen.KernelIdeal
import proofs.«403177_j39006892982631_3_alg».proof.Proof.Gen.ReferenceIdeal
import proofs.«403177_j39006892982631_3_alg».proof.Proof.Gen.Pre_finite_inputs

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- Under the precondition, what the attention pipeline leaves in the result array is the reference's result term of the same
    arguments. -/
theorem results_agree (hpre : Cert.Pre_KernelIdeal m) (c : Dev nD) :
    ((dat1 (F := Ideal) (V3 m ρ) c).arrAt 3 cfg1.N : FVec Ideal S4x4096x256 .f32)
      = Cert.ReferenceIdeal.Read.val_main_v28 (F := Ideal) (inX m c 0) (inX m c 1) (inX m c 2) (inW m c 0) (inB m c 0)
          (inW m c 1) (inB m c 1) (inW m c 2) (inB m c 2) := by
  funext i
  obtain ⟨b, q, d, rfl⟩ : ∃ (b : Fin 4) (q : Fin 4096) (d : Fin 256), i = ix3 b q d := ⟨i 0, i 1, i 2, eq_ix3 i⟩
  obtain ⟨h0, h1, h2, h3, h4, h5, h6, h7, h8⟩ := Cert.KernelIdeal.Finite.real_args m hpre c
  refine (kernel_result m ρ c b q d).trans ?_
  refine Eq.trans ?_ (Cert.ReferenceIdeal.RefValue.reference_result _ _ _ _ _ _ _ _ _ b q d).symm
  exact (congrFun (congrFun (congrFun (Cert.Attention.outDivBefore_eq_outDivAfter
    (Cert.Attention.real_proj h0 h3 h4) (Cert.Attention.real_proj h1 h5 h6) (Cert.Attention.real_proj h2 h7 h8)) b) q) d).symm

end Cert.KernelIdeal.Run

end
-- ==== Proof.lean ====
/-
  The certificate: a two-call Pallas kernel (three stacked linear projections x · Wᵀ + β, then single-pass softmax attention) against
  the jnp reference, over the extended reals.

  Frames: each kernel program runs as host operations, the projection region, host operations, the attention region; neither a host
  operation nor a region writes an argument array, so each ends as launched. The reference is a straight line of host operations.
  The idealized kernel is the kernel's own text read at the exact instance (no rewrite was applied), so the sanctioned-idealization
  conjunct is trivial.
  Values: at the exact instance the kernel's result at (b, q, d) is (Σ_k w(b, q, k) · vp(b, k, d)) / Σ_k w(b, q, k) and the reference's is
  Σ_k (w(b, q, k) / Σ_k' w(b, q, k')) · vp(b, k, d), with w = exp (score - row maximum), score = (qp · kp) / 16 (the kernel's literal
  0.0625 and the reference's 1 / √256 are the same number), and qp, kp, vp the three projections. Under the precondition every
  input entry is a real number; then every weight is a positive real and the two forms are equal.
-/
import proofs.«403177_j39006892982631_3_alg».proof.Defs
import proofs.«403177_j39006892982631_3_alg».proof.Proof.Gen.Kernel
import proofs.«403177_j39006892982631_3_alg».proof.Proof.Gen.KernelIdeal
import proofs.«403177_j39006892982631_3_alg».proof.Proof.Gen.ReferenceIdeal
import proofs.«403177_j39006892982631_3_alg».proof.Proof.Gen.Pre_finite_inputs
import proofs.«403177_j39006892982631_3_alg».proof.Proof.Gen.ReferenceIdeal.Run
import proofs.«403177_j39006892982631_3_alg».proof.Proof.Gen.ReferenceIdeal.Read
import proofs.«403177_j39006892982631_3_alg».proof.Proof.BitsRun
import proofs.«403177_j39006892982631_3_alg».proof.Proof.IdealRun
import proofs.«403177_j39006892982631_3_alg».proof.Proof.Bridge
import Idealize.ShloMosaic.Adequacy
import Idealize.ShloMosaic.Init

noncomputable section

namespace Cert.Proof

open Idealize.ShloMosaic Idealize.ShloMosaic.TcCoe Idealize.SL.Sem

/-- The kernel program, read over machine words, runs and leaves its arguments unchanged. -/
theorem frame_kernel : Cert.frame_Kernel := fun m ρ _ => Cert.Kernel.Run.frame (F := Bits) m ρ

/-- The same program read over the extended reals runs and leaves its arguments unchanged. -/
theorem frame_kernelIdeal : Cert.frame_KernelIdeal := fun m ρ _ => Cert.KernelIdeal.Run.frame (F := Ideal) m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs run, from memories that agree on the arguments, to the same result array. -/
theorem algebraic : Cert.algebraic_KernelIdeal_ReferenceIdeal := by
  intro m ρ m' ρ' hpre hagree
  refine ⟨fun c => (Cert.KernelIdeal.Run.dat1 (F := Ideal) (Cert.KernelIdeal.Run.V3 m ρ) c).arrAt 3 Cert.KernelIdeal.cfg1.N,
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.KernelIdeal.Run.results_agree m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
